-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x256 .f32) (main_arg1 : FVec F S100000x256 .f32) (main_arg2 : FVec F S100000x128 .f32) (main_arg3 : FVec F S128x32 .f32) (main_arg4 : FVec F S32 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S1x32 : Shape := ⟨2, ![1, 32]⟩
abbrev S4096x32 : Shape := ⟨2, ![4096, 32]⟩
abbrev S5000x256 : Shape := ⟨2, ![5000, 256]⟩
abbrev S5000x128 : Shape := ⟨2, ![5000, 128]⟩
abbrev S256x32 : Shape := ⟨2, ![256, 32]⟩
abbrev S5000x32 : Shape := ⟨2, ![5000, 32]⟩

abbrev nBuf : Space → Nat
  | .hbm => 7
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S1x32, .f32⟩
  | .hbm, ⟨6, _⟩ => ⟨S4096x32, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x32, .f32⟩
  | .local _ .vmem, ⟨9, _⟩ => ⟨S1x32, .f32⟩
  | .local _ .vmem, ⟨10, _⟩ => ⟨S4096x256, .f32⟩
  | .local _ .vmem, ⟨11, _⟩ => ⟨S4096x32, .f32⟩
  | .local _ .vmem, ⟨12, _⟩ => ⟨S256x32, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_27 : BitVec 32 := 0#32
  let v41 : BitVec 1 := Scalar.cmpi .ne v40 c0_i32_27
  v41

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096x32_S4096x32_0_0 : ∀ a, (![0, 0] : Fin 2 → Nat) a + S4096x32.size a ≤ S4096x32.size a
  h_S4096x32 : 0 < S4096x32.numel
  dot_S5000x128_S128x32_S5000x32_1_0_0_1_n_n_wf : DotDims.WF S5000x128 S128x32 S5000x32 [1] [0] [0] [1] [] []
  dot_S5000x256_S5000x32_S256x32_0_0_1_1_n_n_wf : DotDims.WF S5000x256 S5000x32 S256x32 [0] [0] [1] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x256.size a
  hwx0_6 : ∀ i : grid0.Coords, EltTy.bits .f32 = 32 ∨ (Rect.block (s := S4096x256) S4096x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x32.size a ≤ S4096x32.size a
  hwx0_7 : ∀ i : grid0.Coords, EltTy.bits .f32 = 32 ∨ (Rect.block (s := S4096x32) S4096x32.size (cc0_transform_7 i) (hinb0_7 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x256_S5000x32_S256x32_0_0_1_1_n_n : DotDims S5000x256 S5000x32 S256x32 where
  lhsContracting := [0]
  rhsContracting := [0]
  lhsNonContracting := [1]
  rhsNonContracting := [1]
  lhsBatch := []
  rhsBatch := []
  wf := dot_S5000x256_S5000x32_S256x32_0_0_1_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S4096x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S4096x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S_ : Shape := ⟨0, ![]⟩
abbrev S256x100000 : Shape := ⟨2, ![256, 100000]⟩
abbrev S256x32 : Shape := ⟨2, ![256, 32]⟩
abbrev S4096x32 : Shape := ⟨2, ![4096, 32]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S100000x32, .f32⟩
  | .hbm, ⟨6, _⟩ => ⟨S1x32, .f32⟩
  | .hbm, ⟨7, _⟩ => ⟨S100000x32, .f32⟩
  | .hbm, ⟨8, _⟩ => ⟨S100000x32, .f32⟩
  | .hbm, ⟨9, _⟩ => ⟨S100000x32, .f32⟩
  | .hbm, ⟨10, _⟩ => ⟨S100000x32, .f32⟩
  | .hbm, ⟨11, _⟩ => ⟨S_, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S100000x32, .f32⟩
  | .hbm, ⟨18, _⟩ => ⟨S256x100000, .f32⟩
  | .hbm, ⟨19, _⟩ => ⟨S256x32, .f32⟩
  | .hbm, ⟨20, _⟩ => ⟨S4096x32, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S100000x256_S256x100000_1_0 : S100000x256.Transposes [1, 0] S256x100000
  dot_S100000x128_S128x32_S100000x32_1_0_0_1_n_n_wf : DotDims.WF S100000x128 S128x32 S100000x32 [1] [0] [0] [1] [] []
  dot_S256x100000_S100000x32_S256x32_1_0_0_1_n_n_wf : DotDims.WF S256x100000 S100000x32 S256x32 [1] [0] [0] [1] [] []
  dot_S4096x256_S256x32_S4096x32_1_0_0_1_n_n_wf : DotDims.WF S4096x256 S256x32 S4096x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S256x100000_S100000x32_S256x32_1_0_0_1_n_n : DotDims S256x100000 S100000x32 S256x32 where
  lhsContracting := [1]
  rhsContracting := [0]
  lhsNonContracting := [0]
  rhsNonContracting := [1]
  lhsBatch := []
  rhsBatch := []
  wf := dot_S256x100000_S100000x32_S256x32_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

class Facts : Prop extends Facts₀ where

variable [Facts]
-- ==== Proof.K.Shared.lean ====
/-
  What the three cases of the kernel body's run share.

  The program is one host reshape of the bias (32 → 1 × 32) and one pipelined region of ten grid points over eight
  windows: two on the metapath matrix (even and odd blocks of 5000 rows), two on the card embeddings (likewise), the
  dense weights, the bias row, the batch pools, and the result. The body zeroes a 256 × 32 scratch accumulator at
  the first point, adds two contributions to it at every point, and at the last point stores the pools times the
  accumulator into the result's buffer, which is written back there and only there.

  Here: the arrays as the region finds them (`entry`), a window's block at a point (`blk`), the two branch
  conditions decided over the grid, where the result window is idle, the staging memrefs, and that an input
  window's buffer holds its block at every point.
-/
import proofs.«161342_g73882027425809_cont_9to1c4b_278_11_alg».proof.Proof.Gen.Kernel.Launch
import proofs.«161342_g73882027425809_cont_9to1c4b_278_11_alg».proof.Proof.Gen.Kernel.Skeleton
import proofs.«161342_g73882027425809_cont_9to1c4b_278_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation. -/
abbrev entry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host reshape and then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The reshape writes only its result: each argument array enters the region as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not (unfetched, the
    block index has not moved), for any proof data whose array is the entry contents and whose body leaves the block
    in place. -/
theorem before_in0 {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = entry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg0 c) (hA : dat.A 4 = entry m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5 {c : Dev nD} (dat : Dat τ (Elt F) Unit ℕ (UR sig nD τ) ℕ cfg0 c) (hA : dat.A 5 = entry m c (Pipeline.arrRef spec0 5))
    (hafter : ∀ t, dat.after 5 t = blk m c 5 t) (t : Fin cfg0.N) (d) : dat.before 5 t d = blk m c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_in6 {c : Dev nD} (dat : Dat τ (Elt F) Unit ℕ (UR sig nD τ) ℕ cfg0 c) (hA : dat.A 6 = entry m c (Pipeline.arrRef spec0 6))
    (hafter : ∀ t, dat.after 6 t = blk m c 6 t) (t : Fin cfg0.N) (d) : dat.before 6 t d = blk m c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's two branches -/

/-- The first branch (the accumulator's reset) is taken: the grid coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch (the result's store) is taken: the grid coordinate is 9. -/
abbrev isLast (i : grid0.Coords) : Prop := k0_cond2 i = 1#1
theorem isLast_iff : ∀ t : Fin cfg0.N, isLast (grid0.coords t) ↔ t.val = 9 :=
  (by decide +kernel : ∀ t : Fin grid0.N, isLast (grid0.coords t) ↔ t.val = 9)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Away from the last point the result window is idle (the body stores nothing into it) and not written back. -/
theorem idle7 : ∀ t : Fin cfg0.N, ¬isLast (grid0.coords t) → cfg0.idle 7 (grid0.coords t) = true := by decide +kernel
theorem noFlush7 : ∀ t : Fin cfg0.N, ¬isLast (grid0.coords t) → (cfg0.win 7).flush t = false := by decide +kernel
/-- At the last point it is live. -/
theorem live7 : ∀ t : Fin cfg0.N, isLast (grid0.coords t) → cfg0.idle 7 (grid0.coords t) = false := by decide +kernel

/-! ## The memrefs the body is called with -/

abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x32 .f32 := win0_7.stage (cfg0.slots t 7)
abbrev hs7 (t : Fin cfg0.N) : (ms7 t).IsWhole := hstage0_7 ((cfg0.slots t 7).cast nbuf0_7)
/-- The scratch accumulator: a whole scoped buffer of the kernel's own. -/
abbrev scM : Memref sig .tc .vmem S256x32 .f32 := Memref.whole cc0_scratch0
/-- The views through which the accumulator's and the result buffer's contents are stated. -/
abbrev VS : View sig .tc .vmem S256x32 .f32 := scM.view
abbrev VO : View sig .tc .vmem S4096x32 .f32 := (Memref.whole cc0_stg7_0 : Memref sig .tc .vmem S4096x32 .f32).view

/-- The core's scoped buffers that no window stages are the one scratch accumulator, at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Fr

end
-- ==== Proof.K.RunFirst.lean ====
/-
  The kernel body run at the first grid point (the accumulator's reset taken, the result's store not): on whole
  staging memrefs holding the seven input blocks, the result's buffer at any contents (handed back untouched) and the
  scratch accumulator at anything, the body runs to its end holding the inputs as they were and the accumulator with
  the pieces its three stores wrote (found by the symbolic run).
-/
import proofs.«161342_g73882027425809_cont_9to1c4b_278_11_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) :
    { LS : List (View.Piece (Elt F) S256x32 .f32) //
      ∀ (xi : Vec F S4096x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun xi E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.Kernel.Fr

end
-- ==== Proof.K.RunMid.lean ====
/-
  The kernel body run at a middle grid point (neither branch taken): on whole staging memrefs holding the seven
  input blocks, the result's buffer at any contents (handed back untouched) and the scratch accumulator at the
  contents the point before left, the body runs to its end holding the inputs as they were and the accumulator with
  the pieces its two stores wrote (found by the symbolic run).
-/
import proofs.«161342_g73882027425809_cont_9to1c4b_278_11_alg».proof.Proof.K.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) :
    { LS : List (View.Piece (Elt F) S256x32 .f32) //
      ∀ (xi : Vec F S4096x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun xi E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.Kernel.Fr

end
-- ==== Proof.K.RunLast.lean ====
/-
  The kernel body run at the last grid point (the reset not taken, the result's store taken): on whole staging
  memrefs holding the seven input blocks, the result's buffer at anything and the scratch accumulator at the contents
  the point before left, the body runs to its end holding the inputs as they were, the accumulator with the pieces its
  two stores wrote and the result's buffer with the piece its one store wrote (found by the symbolic run).
-/
import proofs.«161342_g73882027425809_cont_9to1c4b_278_11_alg».proof.Proof.K.RunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) :
    Σ' (LO : List (View.Piece (Elt F) S4096x32 .f32)), { LS : List (View.Piece (Elt F) S256x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.Kernel.Fr

end
-- ==== Proof.K.Frame.lean ====
/-
  The kernel's frame data: what the scratch accumulator and the result's buffer hold after each grid point, and the
  body obligation.

  After point `n` the accumulator holds what the point's case of the body wrote over what point `n − 1` left (at the
  first point over nothing: the reset covers it); the result's buffer is stored into at the last point only and is
  idle elsewhere. The invariant between points is the accumulator at those contents; before the first point it is
  the accumulator at anything. The metapath matrix and the card embeddings are each read by two windows: each window
  holds half of the array's share.
-/
import proofs.«161342_g73882027425809_cont_9to1c4b_278_11_alg».proof.Proof.K.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's pieces cover and read back as -/

theorem coverFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) (y : S256x32.Idx) :
    ∃ pc ∈ (runFirst c i arg1 harg1 arg2 harg2 arg3 harg3 arg4 harg4 arg5 harg5 arg6 harg6 arg7 harg7 arg8 harg8 arg9 harg9 hc0 hc1 x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 hc0 hc1 x0 x1 x2 x3 x4 x5 x6).1 S256x32.size (by sl_kernel_rfl) y

/-- What the first point leaves in the accumulator. -/
def accFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) : Vec F S256x32 .f32 :=
  VS.read (Elt F) (VS.writes (Elt F) VS.junk (runFirst c i arg1 harg1 arg2 harg2 arg3 harg3 arg4 harg4 arg5 harg5 arg6 harg6 arg7 harg7 arg8 harg8 arg9 harg9 hc0 hc1 x0 x1 x2 x3 x4 x5 x6).1)

theorem coverMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S256x32.Idx) :
    ∃ pc ∈ (runMid c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runMid c i arg1 harg1 arg2 harg2 arg3 harg3 arg4 harg4 arg5 harg5 arg6 harg6 arg7 harg7 arg8 harg8 arg9 harg9 hc0 hc1 x0 x1 x2 x3 x4 x5 x6 xs).1 S256x32.size (by sl_kernel_rfl) y

/-- What a middle point leaves in the accumulator, over what the point before left. -/
def accMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S256x32 .f32 :=
  VS.read (Elt F) (VS.writes (Elt F) VS.junk (runMid c i arg1 harg1 arg2 harg2 arg3 harg3 arg4 harg4 arg5 harg5 arg6 harg6 arg7 harg7 arg8 harg8 arg9 harg9 hc0 hc1 x0 x1 x2 x3 x4 x5 x6 xs).1)

theorem coverLastAcc (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S256x32.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).2.1 S256x32.size (by sl_kernel_rfl) y

/-- What the last point leaves in the accumulator. -/
def accLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S256x32 .f32 :=
  VS.read (Elt F) (VS.writes (Elt F) VS.junk (runLast c i arg1 harg1 arg2 harg2 arg3 harg3 arg4 harg4 arg5 harg5 arg6 harg6 arg7 harg7 arg8 harg8 arg9 harg9 hc0 hc1 x0 x1 x2 x3 x4 x5 x6 xs).2.1)

theorem coverLastOut (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S4096x32.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).1 S4096x32.size (by sl_kernel_rfl) y

/-- What the last point leaves in the result's buffer. -/
def outLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S4096x32 .f32 :=
  VO.read (Elt F) (VO.writes (Elt F) VO.junk (runLast c i arg1 harg1 arg2 harg2 arg3 harg3 arg4 harg4 arg5 harg5 arg6 harg6 arg7 harg7 arg8 harg8 arg9 harg9 hc0 hc1 x0 x1 x2 x3 x4 x5 x6 xs).1)

/-! ## Point by point -/

/-- What the result's buffer and the accumulator hold after the body at point `n`: the point's case run on the
    point's memrefs and input blocks, over the accumulator the point before left. Where the result's buffer is
    idle its component is a placeholder nothing consults. -/
def stAt (c : Dev nD) : (n : ℕ) → n < cfg0.N → Vec F S4096x32 .f32 × Vec F S256x32 .f32
  | 0, hn => (VO.read (Elt F) VO.junk,
      accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((isFirst_iff ⟨0, hn⟩).mpr rfl)
        (fun h => absurd ((isLast_iff ⟨0, hn⟩).mp h) (show ¬(0 : ℕ) = 9 by decide)) (blk m c 0 ⟨0, hn⟩) (blk m c 1 ⟨0, hn⟩) (blk m c 2 ⟨0, hn⟩) (blk m c 3 ⟨0, hn⟩) (blk m c 4 ⟨0, hn⟩) (blk m c 5 ⟨0, hn⟩) (blk m c 6 ⟨0, hn⟩))
  | n + 1, hn =>
    if h9 : n + 1 = 9 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          ((isLast_iff ⟨n + 1, hn⟩).mpr h9) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          ((isLast_iff ⟨n + 1, hn⟩).mpr h9) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2)
    else
      (VO.read (Elt F) VO.junk,
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          (fun h => h9 ((isLast_iff ⟨n + 1, hn⟩).mp h)) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2)

theorem stAt_first (c : Dev nD) (t : Fin cfg0.N) (h0 : t.val = 0) (h9 : ¬t.val = 9) :
    stAt m c t.val t.isLt = (VO.read (Elt F) VO.junk,
      accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirst_iff t).mpr h0) (fun h => h9 ((isLast_iff t).mp h)) (blk m c 0 t) (blk m c 1 t) (blk m c 2 t) (blk m c 3 t) (blk m c 4 t) (blk m c 5 t) (blk m c 6 t)) := by
  obtain ⟨n, hn⟩ := t
  cases n with
  | zero => exact rfl
  | succ n => exact absurd h0 (Nat.succ_ne_zero n)

theorem stAt_mid (c : Dev nD) (t : Fin cfg0.N) (h0 : ¬t.val = 0) (h9 : ¬t.val = 9) :
    stAt m c t.val t.isLt = (VO.read (Elt F) VO.junk,
      accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (fun h => h9 ((isLast_iff t).mp h)) (blk m c 0 t) (blk m c 1 t) (blk m c 2 t) (blk m c 3 t) (blk m c 4 t) (blk m c 5 t) (blk m c 6 t)
        (stAt m c (t.val - 1) (Nat.lt_of_le_of_lt (Nat.sub_le _ _) t.isLt)).2) := by
  obtain ⟨n, hn⟩ := t
  cases n with
  | zero => exact absurd rfl h0
  | succ n => exact (dif_neg h9).trans rfl

theorem stAt_last (c : Dev nD) (t : Fin cfg0.N) (h0 : ¬t.val = 0) (h9 : t.val = 9) :
    stAt m c t.val t.isLt = (outLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h9) (blk m c 0 t) (blk m c 1 t) (blk m c 2 t) (blk m c 3 t) (blk m c 4 t) (blk m c 5 t) (blk m c 6 t)
        (stAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h9) (blk m c 0 t) (blk m c 1 t) (blk m c 2 t) (blk m c 3 t) (blk m c 4 t) (blk m c 5 t) (blk m c 6 t)
        (stAt m c (t.val - 1) (Nat.lt_of_le_of_lt (Nat.sub_le _ _) t.isLt)).2) := by
  obtain ⟨n, hn⟩ := t
  cases n with
  | zero => exact absurd rfl h0
  | succ n => exact (dif_pos h9).trans rfl

/-- The invariant before position `n`: before the first point the accumulator at anything, afterwards at what the
    point before left in it. -/
def PhiS (c : Dev nD) : (n : ℕ) → n ≤ cfg0.N → sProp 𝕄
  | 0, _ => iprop(∃ d, owns (c : Thread nD τ) scM fullShare d)
  | n + 1, hn => owns (c : Thread nD τ) scM fullShare ((stAt m c n hn).2)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((stAt m c n hn).2) := rfl

theorem PhiS_pos (c : Dev nD) (n : ℕ) (h : n ≤ cfg0.N) (hz : n ≠ 0) :
    PhiS m c n h = owns (c : Thread nD τ) scM fullShare ((stAt m c (n - 1) (by omega)).2) := by
  cases n with
  | zero => exact absurd rfl hz
  | succ n => rfl

/-! ## The proof data -/

/-- The proof data of the pipeline on core `c`: the arrays as the region finds them; after the body at point `t` each
    input's buffer at its block and the result's at `stAt`'s first component; the invariant `PhiS`; nothing owed; the
    two windows on the metapath matrix hold the two halves of its share, the two on the card embeddings likewise. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => (stAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = entry m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = (stAt m c t.val t.isLt).1 := by dsimp only [dats]

theorem before0 (c : Dev nD) (t : Fin cfg0.N) (d) : (dats m 0 c).before 0 t d = blk m c 0 t :=
  before_in0 m (dats m 0 c) (A_eq m c 0) (after0 m c) t d
theorem before1 (c : Dev nD) (t : Fin cfg0.N) (d) : (dats m 0 c).before 1 t d = blk m c 1 t :=
  before_in1 m (dats m 0 c) (A_eq m c 1) (after1 m c) t d
theorem before2 (c : Dev nD) (t : Fin cfg0.N) (d) : (dats m 0 c).before 2 t d = blk m c 2 t :=
  before_in2 m (dats m 0 c) (A_eq m c 2) (after2 m c) t d
theorem before3 (c : Dev nD) (t : Fin cfg0.N) (d) : (dats m 0 c).before 3 t d = blk m c 3 t :=
  before_in3 m (dats m 0 c) (A_eq m c 3) (after3 m c) t d
theorem before4 (c : Dev nD) (t : Fin cfg0.N) (d) : (dats m 0 c).before 4 t d = blk m c 4 t :=
  before_in4 m (dats m 0 c) (A_eq m c 4) (after4 m c) t d
theorem before5 (c : Dev nD) (t : Fin cfg0.N) (d) : (dats m 0 c).before 5 t d = blk m c 5 t :=
  before_in5 m (dats m 0 c) (A_eq m c 5) (after5 m c) t d
theorem before6 (c : Dev nD) (t : Fin cfg0.N) (d) : (dats m 0 c).before 6 t d = blk m c 6 t :=
  before_in6 m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. Each input's memref holds its block; the point is the first, a middle or the last one;
    the case's run applies, handed the accumulator at what the point before left (at anything at the first point) and
    handing it back at this point's contents; the result's buffer goes through untouched except at the last point,
    where it leaves at the stored product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  have hN : t.val < 10 := lt_of_lt_of_eq t.isLt (show cfg0.N = 10 from N_0)
  by_cases h9 : t.val = 9
  · have h0 : ¬t.val = 0 := by omega
    rw [show (dats m 0 c).leavesExact 7 t = owns (c : Thread nD τ) (ms7 t) fullShare ((dats m 0 c).after 7 t) from by
      unfold Dat.leavesExact; rw [live7 t ((isLast_iff t).mpr h9)], after7]
    rw [stAt_last m c t h0 h9]
    unfold outLast accLast; (try dsimp only)
    rw [PhiS_castSucc m c t, PhiS_pos m c _ _ h0]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ (fun h => h0 ((isFirst_iff t).mp h)) ((isLast_iff t).mpr h9) (blk m c 0 t) (blk m c 1 t) (blk m c 2 t) (blk m c 3 t) (blk m c 4 t) (blk m c 5 t) (blk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS]
    · unfold owns; iexists _; isplitr
      swap; · iexact HS
      ipureintro; exact View.read_writes_of_cover _ _ _ _ _ (coverLastAcc c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLastOut c _ _ _ _ _ _ _ _ _ _ _ _ _ _ _ _ _ _ _ _ _ _ _ _ _ _ _ _ _)
  · rw [Dat.leavesExact_idle (dats m 0 c) 7 t (idle7 t (fun h => h9 ((isLast_iff t).mp h))) (noFlush7 t (fun h => h9 ((isLast_iff t).mp h)))]
    by_cases h0 : t.val = 0
    · rw [stAt_first m c t h0 h9]
      unfold accFirst; (try dsimp only)
      rw [PhiS_castSucc m c t, PhiS_zero m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) _ _ _ _ _ _ _ _ _ _ _ _ _ _ _ _ _ _ ((isFirst_iff t).mpr h0) (fun h => h9 ((isLast_iff t).mp h)) (blk m c 0 t) (blk m c 1 t) (blk m c 2 t) (blk m c 3 t) (blk m c 4 t) (blk m c 5 t) (blk m c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [stAt_mid m c t h0 h9]
      unfold accMid; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) _ _ _ _ _ _ _ _ _ _ _ _ _ _ _ _ _ _ (fun h => h0 ((isFirst_iff t).mp h)) (fun h => h9 ((isLast_iff t).mp h)) (blk m c 0 t) (blk m c 1 t) (blk m c 2 t) (blk m c 3 t) (blk m c 4 t) (blk m c 5 t) (blk m c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (coverMid c _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Launch.lean ====
/-
  The launch: @main's run from the body obligation.

  The region's eight windows stand on six arrays: the metapath matrix and the card embeddings are each handed to two
  input windows. At the region's entry each of those two arrays' full share is dealt as two halves, one per window;
  every other array goes whole to its one window. The scratch accumulator enters the invariant at anything and leaves
  it forgotten; the bias vector bypasses the region. So every weakly fair execution of @main terminates with each
  window's array at what the write-backs leave and every other unscoped buffer as the region found it.
-/
import proofs.«161342_g73882027425809_cont_9to1c4b_278_11_alg».proof.Proof.K.Frame
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSepL_cons_cons bigSepL_singleton)

/-- The six distinct arrays behind the eight windows. -/
theorem arrs_eq : Finset.univ.image (Pipeline.arrRef spec0) = ([main_arg1, main_arg2, main_arg3, main_v0, main_arg0, main_v1] : List (Ref sig .tc)).toFinset := by decide

/-- The arrays' buffers as the region finds them, one by one. -/
theorem arrBufs_eq (c : Dev nD) :
    (Pipeline.arrBufs spec0 c (entry m c) : sProp 𝕄)
      = iprop(((c : Thread nD τ).loc main_arg1 ↦{fullShare} entry m c main_arg1) ∗ ((c : Thread nD τ).loc main_arg2 ↦{fullShare} entry m c main_arg2) ∗ ((c : Thread nD τ).loc main_arg3 ↦{fullShare} entry m c main_arg3) ∗ ((c : Thread nD τ).loc main_v0 ↦{fullShare} entry m c main_v0) ∗ ((c : Thread nD τ).loc main_arg0 ↦{fullShare} entry m c main_arg0) ∗ ((c : Thread nD τ).loc main_v1 ↦{fullShare} entry m c main_v1)) := by
  unfold Pipeline.arrBufs
  exact bigSep_eq_bigSepL_of_eq _ arrs_eq (by decide) _

/-- A buffer held whole at the full share is held at its two halves. -/
theorem halves (c : Dev nD) (b : Ref sig .tc) :
    (((c : Thread nD τ).loc b ↦{fullShare} entry m c b) : sProp 𝕄)
      ⊢ iprop(((c : Thread nD τ).loc b ↦{fullShare.left} entry m c b) ∗ ((c : Thread nD τ).loc b ↦{fullShare.right} entry m c b)) :=
  (pointsTo_share (PosShare.mem_left_op_right fullShare)).1

/-- The arrays' buffers, each whole at the full share as the region finds them, are the windows' arrays at their
    shares: the two arrays read through two windows are split in halves. -/
theorem hsplit (c : Dev nD) :
    (Pipeline.arrBufs spec0 c (entry m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl, show (dats m 0 c).share 7 = fullShare from rfl]
  iintro ⟨H1, H2, H3, Hv0, H0, Hv1⟩
  ihave H1' := (halves m c main_arg1) $$ H1
  icases H1' with ⟨H1a, H1b⟩
  ihave H2' := (halves m c main_arg2) $$ H2
  icases H2' with ⟨H2a, H2b⟩
  isplitl [H1a]; · iexact H1a
  isplitl [H1b]; · iexact H1b
  isplitl [H2a]; · iexact H2a
  isplitl [H2b]; · iexact H2b
  isplitl [H3]; · iexact H3
  isplitl [Hv0]; · iexact Hv0
  isplitl [H0]; · iexact H0
  iexact Hv1

/-- What the launch hands the region of the scoped buffers is the invariant before the first point. -/
theorem hin (c : Dev nD) : iprop((emp : sProp 𝕄) ∗ Pipeline.scopedRest spec0 c) ⊢ (dats m 0 c).Φ 0 := by
  rw [show (dats m 0 c).Φ 0 = PhiS m c 0 (Nat.zero_le _) from rfl, PhiS_zero m c 0 _ rfl, scratch_eq]
  iintro ⟨-, H⟩; iexact H

/-- After the last point the invariant gives the scoped buffers back: the accumulator's contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 10 := N_0; omega), scratch_eq]
  iintro H
  isplitr; · iempintro
  iexists _; iexact H

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (entry m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := entry m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := hin m) (hout := hout m)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h => h)

/-- info: 'Cert.Kernel.Fr.run_main' depends on axioms: [propext, Classical.choice, Quot.sound] -/
#guard_msgs in #print axioms run_main

/-- The result array after the run, on core `c`: what the one write-back, at the last point, leaves. -/
abbrev resultArr (c : Dev nD) : Buf (Elt F) ((c : Thread nD τ).loc main_v1) := (dats m 0 c).arrAt 7 cfg0.N

/-- The run's post read at @main's buffers: the result at `resultArr`, the five arguments as launched (four are
    input windows' arrays, never written; the bias vector bypasses the region). -/
theorem run_args : θ_run defs (onTc (τ := τ) (main (F := F))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 7,
      ((h c).1 6).trans (((dats m 0 c).arrAt_in 6 rfl _).trans ((A_eq m c 6).trans (entry_arg0 m c))),
      ((h c).1 0).trans (((dats m 0 c).arrAt_in 0 rfl _).trans ((A_eq m c 0).trans (entry_arg1 m c))),
      ((h c).1 2).trans (((dats m 0 c).arrAt_in 2 rfl _).trans ((A_eq m c 2).trans (entry_arg2 m c))),
      ((h c).1 4).trans (((dats m 0 c).arrAt_in 4 rfl _).trans ((A_eq m c 4).trans (entry_arg3 m c))),
      ((h c).2 main_arg4 (Pipeline.mem_restRefs_of main_arg4 (by decide) (by decide))).trans (entry_arg4 m c)⟩) (run_main m ρ)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.Kernel.Fr

end
-- ==== Proof.KI.Shared.lean ====
/-
  What the three cases of the kernel body's run share.

  The program is one host reshape of the bias (32 → 1 × 32) and one pipelined region of ten grid points over eight
  windows: two on the metapath matrix (even and odd blocks of 5000 rows), two on the card embeddings (likewise), the
  dense weights, the bias row, the batch pools, and the result. The body zeroes a 256 × 32 scratch accumulator at
  the first point, adds two contributions to it at every point, and at the last point stores the pools times the
  accumulator into the result's buffer, which is written back there and only there.

  Here: the arrays as the region finds them (`entry`), a window's block at a point (`blk`), the two branch
  conditions decided over the grid, where the result window is idle, the staging memrefs, and that an input
  window's buffer holds its block at every point.
-/
import proofs.«161342_g73882027425809_cont_9to1c4b_278_11_alg».proof.Proof.Gen.KernelIdeal.Launch
import proofs.«161342_g73882027425809_cont_9to1c4b_278_11_alg».proof.Proof.Gen.KernelIdeal.Skeleton
import proofs.«161342_g73882027425809_cont_9to1c4b_278_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation. -/
abbrev entry (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host reshape and then the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The reshape writes only its result: each argument array enters the region as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not (unfetched, the
    block index has not moved), for any proof data whose array is the entry contents and whose body leaves the block
    in place. -/
theorem before_in0 {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = entry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_in4 {c : Dev nD} (dat : Dat τ (Elt F) Unit ℕ (UR sig nD τ) ℕ cfg0 c) (hA : dat.A 4 = entry m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_in5 {c : Dev nD} (dat : Dat τ (Elt F) Unit ℕ (UR sig nD τ) ℕ cfg0 c) (hA : dat.A 5 = entry m c (Pipeline.arrRef spec0 5))
    (hafter : ∀ t, dat.after 5 t = blk m c 5 t) (t : Fin cfg0.N) (d) : dat.before 5 t d = blk m c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem before_in6 {c : Dev nD} (dat : Dat τ (Elt F) Unit ℕ (UR sig nD τ) ℕ cfg0 c) (hA : dat.A 6 = entry m c (Pipeline.arrRef spec0 6))
    (hafter : ∀ t, dat.after 6 t = blk m c 6 t) (t : Fin cfg0.N) (d) : dat.before 6 t d = blk m c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The body's two branches -/

/-- The first branch (the accumulator's reset) is taken: the grid coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch (the result's store) is taken: the grid coordinate is 9. -/
abbrev isLast (i : grid0.Coords) : Prop := k0_cond2 i = 1#1
theorem isLast_iff : ∀ t : Fin cfg0.N, isLast (grid0.coords t) ↔ t.val = 9 :=
  (by decide +kernel : ∀ t : Fin grid0.N, isLast (grid0.coords t) ↔ t.val = 9)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- Away from the last point the result window is idle (the body stores nothing into it) and not written back. -/
theorem idle7 : ∀ t : Fin cfg0.N, ¬isLast (grid0.coords t) → cfg0.idle 7 (grid0.coords t) = true := by decide +kernel
theorem noFlush7 : ∀ t : Fin cfg0.N, ¬isLast (grid0.coords t) → (cfg0.win 7).flush t = false := by decide +kernel
/-- At the last point it is live. -/
theorem live7 : ∀ t : Fin cfg0.N, isLast (grid0.coords t) → cfg0.idle 7 (grid0.coords t) = false := by decide +kernel

/-! ## The memrefs the body is called with -/

abbrev ms0 (t : Fin cfg0.N) : Memref sig .tc .vmem S5000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x32 .f32 := win0_7.stage (cfg0.slots t 7)
abbrev hs7 (t : Fin cfg0.N) : (ms7 t).IsWhole := hstage0_7 ((cfg0.slots t 7).cast nbuf0_7)
/-- The scratch accumulator: a whole scoped buffer of the kernel's own. -/
abbrev scM : Memref sig .tc .vmem S256x32 .f32 := Memref.whole cc0_scratch0
/-- The views through which the accumulator's and the result buffer's contents are stated. -/
abbrev VS : View sig .tc .vmem S256x32 .f32 := scM.view
abbrev VO : View sig .tc .vmem S4096x32 .f32 := (Memref.whole cc0_stg7_0 : Memref sig .tc .vmem S4096x32 .f32).view

/-- The core's scoped buffers that no window stages are the one scratch accumulator, at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Fr

end
-- ==== Proof.KI.RunFirst.lean ====
/-
  The kernel body run at the first grid point (the accumulator's reset taken, the result's store not): on whole
  staging memrefs holding the seven input blocks, the result's buffer at any contents (handed back untouched) and the
  scratch accumulator at anything, the body runs to its end holding the inputs as they were and the accumulator with
  the pieces its three stores wrote (found by the symbolic run).
-/
import proofs.«161342_g73882027425809_cont_9to1c4b_278_11_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) :
    { LS : List (View.Piece (Elt F) S256x32 .f32) //
      ∀ (xi : Vec F S4096x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun xi E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.KernelIdeal.Fr

end
-- ==== Proof.KI.RunMid.lean ====
/-
  The kernel body run at a middle grid point (neither branch taken): on whole staging memrefs holding the seven
  input blocks, the result's buffer at any contents (handed back untouched) and the scratch accumulator at the
  contents the point before left, the body runs to its end holding the inputs as they were and the accumulator with
  the pieces its two stores wrote (found by the symbolic run).
-/
import proofs.«161342_g73882027425809_cont_9to1c4b_278_11_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) :
    { LS : List (View.Piece (Elt F) S256x32 .f32) //
      ∀ (xi : Vec F S4096x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun xi E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.KernelIdeal.Fr

end
-- ==== Proof.KI.RunLast.lean ====
/-
  The kernel body run at the last grid point (the reset not taken, the result's store taken): on whole staging
  memrefs holding the seven input blocks, the result's buffer at anything and the scratch accumulator at the contents
  the point before left, the body runs to its end holding the inputs as they were, the accumulator with the pieces its
  two stores wrote and the result's buffer with the piece its one store wrote (found by the symbolic run).
-/
import proofs.«161342_g73882027425809_cont_9to1c4b_278_11_alg».proof.Proof.KI.RunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole)
    (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) :
    Σ' (LO : List (View.Piece (Elt F) S4096x32 .f32)), { LS : List (View.Piece (Elt F) S256x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.KernelIdeal.Fr

end
-- ==== Proof.KI.Frame.lean ====
/-
  The kernel's frame data: what the scratch accumulator and the result's buffer hold after each grid point, and the
  body obligation.

  After point `n` the accumulator holds what the point's case of the body wrote over what point `n − 1` left (at the
  first point over nothing: the reset covers it); the result's buffer is stored into at the last point only and is
  idle elsewhere. The invariant between points is the accumulator at those contents; before the first point it is
  the accumulator at anything. The metapath matrix and the card embeddings are each read by two windows: each window
  holds half of the array's share.
-/
import proofs.«161342_g73882027425809_cont_9to1c4b_278_11_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's pieces cover and read back as -/

theorem coverFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) (y : S256x32.Idx) :
    ∃ pc ∈ (runFirst c i arg1 harg1 arg2 harg2 arg3 harg3 arg4 harg4 arg5 harg5 arg6 harg6 arg7 harg7 arg8 harg8 arg9 harg9 hc0 hc1 x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 hc0 hc1 x0 x1 x2 x3 x4 x5 x6).1 S256x32.size (by sl_kernel_rfl) y

/-- What the first point leaves in the accumulator. -/
def accFirst (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) : Vec F S256x32 .f32 :=
  VS.read (Elt F) (VS.writes (Elt F) VS.junk (runFirst c i arg1 harg1 arg2 harg2 arg3 harg3 arg4 harg4 arg5 harg5 arg6 harg6 arg7 harg7 arg8 harg8 arg9 harg9 hc0 hc1 x0 x1 x2 x3 x4 x5 x6).1)

theorem coverMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S256x32.Idx) :
    ∃ pc ∈ (runMid c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runMid c i arg1 harg1 arg2 harg2 arg3 harg3 arg4 harg4 arg5 harg5 arg6 harg6 arg7 harg7 arg8 harg8 arg9 harg9 hc0 hc1 x0 x1 x2 x3 x4 x5 x6 xs).1 S256x32.size (by sl_kernel_rfl) y

/-- What a middle point leaves in the accumulator, over what the point before left. -/
def accMid (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S256x32 .f32 :=
  VS.read (Elt F) (VS.writes (Elt F) VS.junk (runMid c i arg1 harg1 arg2 harg2 arg3 harg3 arg4 harg4 arg5 harg5 arg6 harg6 arg7 harg7 arg8 harg8 arg9 harg9 hc0 hc1 x0 x1 x2 x3 x4 x5 x6 xs).1)

theorem coverLastAcc (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S256x32.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).2.1 S256x32.size (by sl_kernel_rfl) y

/-- What the last point leaves in the accumulator. -/
def accLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S256x32 .f32 :=
  VS.read (Elt F) (VS.writes (Elt F) VS.junk (runLast c i arg1 harg1 arg2 harg2 arg3 harg3 arg4 harg4 arg5 harg5 arg6 harg6 arg7 harg7 arg8 harg8 arg9 harg9 hc0 hc1 x0 x1 x2 x3 x4 x5 x6 xs).2.1)

theorem coverLastOut (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) (y : S4096x32.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).1 S4096x32.size (by sl_kernel_rfl) y

/-- What the last point leaves in the result's buffer. -/
def outLast (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) : Vec F S4096x32 .f32 :=
  VO.read (Elt F) (VO.writes (Elt F) VO.junk (runLast c i arg1 harg1 arg2 harg2 arg3 harg3 arg4 harg4 arg5 harg5 arg6 harg6 arg7 harg7 arg8 harg8 arg9 harg9 hc0 hc1 x0 x1 x2 x3 x4 x5 x6 xs).1)

/-! ## Point by point -/

/-- What the result's buffer and the accumulator hold after the body at point `n`: the point's case run on the
    point's memrefs and input blocks, over the accumulator the point before left. Where the result's buffer is
    idle its component is a placeholder nothing consults. -/
def stAt (c : Dev nD) : (n : ℕ) → n < cfg0.N → Vec F S4096x32 .f32 × Vec F S256x32 .f32
  | 0, hn => (VO.read (Elt F) VO.junk,
      accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((isFirst_iff ⟨0, hn⟩).mpr rfl)
        (fun h => absurd ((isLast_iff ⟨0, hn⟩).mp h) (show ¬(0 : ℕ) = 9 by decide)) (blk m c 0 ⟨0, hn⟩) (blk m c 1 ⟨0, hn⟩) (blk m c 2 ⟨0, hn⟩) (blk m c 3 ⟨0, hn⟩) (blk m c 4 ⟨0, hn⟩) (blk m c 5 ⟨0, hn⟩) (blk m c 6 ⟨0, hn⟩))
  | n + 1, hn =>
    if h9 : n + 1 = 9 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          ((isLast_iff ⟨n + 1, hn⟩).mpr h9) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          ((isLast_iff ⟨n + 1, hn⟩).mpr h9) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2)
    else
      (VO.read (Elt F) VO.junk,
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n))
          (fun h => h9 ((isLast_iff ⟨n + 1, hn⟩).mp h)) (blk m c 0 ⟨n + 1, hn⟩) (blk m c 1 ⟨n + 1, hn⟩) (blk m c 2 ⟨n + 1, hn⟩) (blk m c 3 ⟨n + 1, hn⟩) (blk m c 4 ⟨n + 1, hn⟩) (blk m c 5 ⟨n + 1, hn⟩) (blk m c 6 ⟨n + 1, hn⟩) (stAt c n (Nat.lt_of_succ_lt hn)).2)

theorem stAt_first (c : Dev nD) (t : Fin cfg0.N) (h0 : t.val = 0) (h9 : ¬t.val = 9) :
    stAt m c t.val t.isLt = (VO.read (Elt F) VO.junk,
      accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirst_iff t).mpr h0) (fun h => h9 ((isLast_iff t).mp h)) (blk m c 0 t) (blk m c 1 t) (blk m c 2 t) (blk m c 3 t) (blk m c 4 t) (blk m c 5 t) (blk m c 6 t)) := by
  obtain ⟨n, hn⟩ := t
  cases n with
  | zero => exact rfl
  | succ n => exact absurd h0 (Nat.succ_ne_zero n)

theorem stAt_mid (c : Dev nD) (t : Fin cfg0.N) (h0 : ¬t.val = 0) (h9 : ¬t.val = 9) :
    stAt m c t.val t.isLt = (VO.read (Elt F) VO.junk,
      accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (fun h => h9 ((isLast_iff t).mp h)) (blk m c 0 t) (blk m c 1 t) (blk m c 2 t) (blk m c 3 t) (blk m c 4 t) (blk m c 5 t) (blk m c 6 t)
        (stAt m c (t.val - 1) (Nat.lt_of_le_of_lt (Nat.sub_le _ _) t.isLt)).2) := by
  obtain ⟨n, hn⟩ := t
  cases n with
  | zero => exact absurd rfl h0
  | succ n => exact (dif_neg h9).trans rfl

theorem stAt_last (c : Dev nD) (t : Fin cfg0.N) (h0 : ¬t.val = 0) (h9 : t.val = 9) :
    stAt m c t.val t.isLt = (outLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h9) (blk m c 0 t) (blk m c 1 t) (blk m c 2 t) (blk m c 3 t) (blk m c 4 t) (blk m c 5 t) (blk m c 6 t)
        (stAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h9) (blk m c 0 t) (blk m c 1 t) (blk m c 2 t) (blk m c 3 t) (blk m c 4 t) (blk m c 5 t) (blk m c 6 t)
        (stAt m c (t.val - 1) (Nat.lt_of_le_of_lt (Nat.sub_le _ _) t.isLt)).2) := by
  obtain ⟨n, hn⟩ := t
  cases n with
  | zero => exact absurd rfl h0
  | succ n => exact (dif_pos h9).trans rfl

/-- The invariant before position `n`: before the first point the accumulator at anything, afterwards at what the
    point before left in it. -/
def PhiS (c : Dev nD) : (n : ℕ) → n ≤ cfg0.N → sProp 𝕄
  | 0, _ => iprop(∃ d, owns (c : Thread nD τ) scM fullShare d)
  | n + 1, hn => owns (c : Thread nD τ) scM fullShare ((stAt m c n hn).2)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((stAt m c n hn).2) := rfl

theorem PhiS_pos (c : Dev nD) (n : ℕ) (h : n ≤ cfg0.N) (hz : n ≠ 0) :
    PhiS m c n h = owns (c : Thread nD τ) scM fullShare ((stAt m c (n - 1) (by omega)).2) := by
  cases n with
  | zero => exact absurd rfl hz
  | succ n => rfl

/-! ## The proof data -/

/-- The proof data of the pipeline on core `c`: the arrays as the region finds them; after the body at point `t` each
    input's buffer at its block and the result's at `stAt`'s first component; the invariant `PhiS`; nothing owed; the
    two windows on the metapath matrix hold the two halves of its share, the two on the card embeddings likewise. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => (stAt m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = entry m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = (stAt m c t.val t.isLt).1 := by dsimp only [dats]

theorem before0 (c : Dev nD) (t : Fin cfg0.N) (d) : (dats m 0 c).before 0 t d = blk m c 0 t :=
  before_in0 m (dats m 0 c) (A_eq m c 0) (after0 m c) t d
theorem before1 (c : Dev nD) (t : Fin cfg0.N) (d) : (dats m 0 c).before 1 t d = blk m c 1 t :=
  before_in1 m (dats m 0 c) (A_eq m c 1) (after1 m c) t d
theorem before2 (c : Dev nD) (t : Fin cfg0.N) (d) : (dats m 0 c).before 2 t d = blk m c 2 t :=
  before_in2 m (dats m 0 c) (A_eq m c 2) (after2 m c) t d
theorem before3 (c : Dev nD) (t : Fin cfg0.N) (d) : (dats m 0 c).before 3 t d = blk m c 3 t :=
  before_in3 m (dats m 0 c) (A_eq m c 3) (after3 m c) t d
theorem before4 (c : Dev nD) (t : Fin cfg0.N) (d) : (dats m 0 c).before 4 t d = blk m c 4 t :=
  before_in4 m (dats m 0 c) (A_eq m c 4) (after4 m c) t d
theorem before5 (c : Dev nD) (t : Fin cfg0.N) (d) : (dats m 0 c).before 5 t d = blk m c 5 t :=
  before_in5 m (dats m 0 c) (A_eq m c 5) (after5 m c) t d
theorem before6 (c : Dev nD) (t : Fin cfg0.N) (d) : (dats m 0 c).before 6 t d = blk m c 6 t :=
  before_in6 m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. Each input's memref holds its block; the point is the first, a middle or the last one;
    the case's run applies, handed the accumulator at what the point before left (at anything at the first point) and
    handing it back at this point's contents; the result's buffer goes through untouched except at the last point,
    where it leaves at the stored product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  have hN : t.val < 10 := lt_of_lt_of_eq t.isLt (show cfg0.N = 10 from N_0)
  by_cases h9 : t.val = 9
  · have h0 : ¬t.val = 0 := by omega
    rw [show (dats m 0 c).leavesExact 7 t = owns (c : Thread nD τ) (ms7 t) fullShare ((dats m 0 c).after 7 t) from by
      unfold Dat.leavesExact; rw [live7 t ((isLast_iff t).mpr h9)], after7]
    rw [stAt_last m c t h0 h9]
    unfold outLast accLast; (try dsimp only)
    rw [PhiS_castSucc m c t, PhiS_pos m c _ _ h0]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLast c (grid0.coords t) _ _ _ _ _ _ _ _ _ _ _ _ _ _ _ _ _ _ (fun h => h0 ((isFirst_iff t).mp h)) ((isLast_iff t).mpr h9) (blk m c 0 t) (blk m c 1 t) (blk m c 2 t) (blk m c 3 t) (blk m c 4 t) (blk m c 5 t) (blk m c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS]
    · unfold owns; iexists _; isplitr
      swap; · iexact HS
      ipureintro; exact View.read_writes_of_cover _ _ _ _ _ (coverLastAcc c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverLastOut c _ _ _ _ _ _ _ _ _ _ _ _ _ _ _ _ _ _ _ _ _ _ _ _ _ _ _ _ _)
  · rw [Dat.leavesExact_idle (dats m 0 c) 7 t (idle7 t (fun h => h9 ((isLast_iff t).mp h))) (noFlush7 t (fun h => h9 ((isLast_iff t).mp h)))]
    by_cases h0 : t.val = 0
    · rw [stAt_first m c t h0 h9]
      unfold accFirst; (try dsimp only)
      rw [PhiS_castSucc m c t, PhiS_zero m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid0.coords t) _ _ _ _ _ _ _ _ _ _ _ _ _ _ _ _ _ _ ((isFirst_iff t).mpr h0) (fun h => h9 ((isLast_iff t).mp h)) (blk m c 0 t) (blk m c 1 t) (blk m c 2 t) (blk m c 3 t) (blk m c 4 t) (blk m c 5 t) (blk m c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [stAt_mid m c t h0 h9]
      unfold accMid; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid0.coords t) _ _ _ _ _ _ _ _ _ _ _ _ _ _ _ _ _ _ (fun h => h0 ((isFirst_iff t).mp h)) (fun h => h9 ((isLast_iff t).mp h)) (blk m c 0 t) (blk m c 1 t) (blk m c 2 t) (blk m c 3 t) (blk m c 4 t) (blk m c 5 t) (blk m c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS]
      · unfold owns; iexists _; isplitr
        swap; · iexact HS
        ipureintro; exact View.read_writes_of_cover _ _ _ _ _ (coverMid c _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The launch: @main's run from the body obligation.

  The region's eight windows stand on six arrays: the metapath matrix and the card embeddings are each handed to two
  input windows. At the region's entry each of those two arrays' full share is dealt as two halves, one per window;
  every other array goes whole to its one window. The scratch accumulator enters the invariant at anything and leaves
  it forgotten; the bias vector bypasses the region. So every weakly fair execution of @main terminates with each
  window's array at what the write-backs leave and every other unscoped buffer as the region found it.
-/
import proofs.«161342_g73882027425809_cont_9to1c4b_278_11_alg».proof.Proof.KI.Frame
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq bigSepL_cons_cons bigSepL_singleton)

/-- The six distinct arrays behind the eight windows. -/
theorem arrs_eq : Finset.univ.image (Pipeline.arrRef spec0) = ([main_arg1, main_arg2, main_arg3, main_v0, main_arg0, main_v1] : List (Ref sig .tc)).toFinset := by decide

/-- The arrays' buffers as the region finds them, one by one. -/
theorem arrBufs_eq (c : Dev nD) :
    (Pipeline.arrBufs spec0 c (entry m c) : sProp 𝕄)
      = iprop(((c : Thread nD τ).loc main_arg1 ↦{fullShare} entry m c main_arg1) ∗ ((c : Thread nD τ).loc main_arg2 ↦{fullShare} entry m c main_arg2) ∗ ((c : Thread nD τ).loc main_arg3 ↦{fullShare} entry m c main_arg3) ∗ ((c : Thread nD τ).loc main_v0 ↦{fullShare} entry m c main_v0) ∗ ((c : Thread nD τ).loc main_arg0 ↦{fullShare} entry m c main_arg0) ∗ ((c : Thread nD τ).loc main_v1 ↦{fullShare} entry m c main_v1)) := by
  unfold Pipeline.arrBufs
  exact bigSep_eq_bigSepL_of_eq _ arrs_eq (by decide) _

/-- A buffer held whole at the full share is held at its two halves. -/
theorem halves (c : Dev nD) (b : Ref sig .tc) :
    (((c : Thread nD τ).loc b ↦{fullShare} entry m c b) : sProp 𝕄)
      ⊢ iprop(((c : Thread nD τ).loc b ↦{fullShare.left} entry m c b) ∗ ((c : Thread nD τ).loc b ↦{fullShare.right} entry m c b)) :=
  (pointsTo_share (PosShare.mem_left_op_right fullShare)).1

/-- The arrays' buffers, each whole at the full share as the region finds them, are the windows' arrays at their
    shares: the two arrays read through two windows are split in halves. -/
theorem hsplit (c : Dev nD) :
    (Pipeline.arrBufs spec0 c (entry m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl,
    show (dats m 0 c).share 6 = fullShare from rfl, show (dats m 0 c).share 7 = fullShare from rfl]
  iintro ⟨H1, H2, H3, Hv0, H0, Hv1⟩
  ihave H1' := (halves m c main_arg1) $$ H1
  icases H1' with ⟨H1a, H1b⟩
  ihave H2' := (halves m c main_arg2) $$ H2
  icases H2' with ⟨H2a, H2b⟩
  isplitl [H1a]; · iexact H1a
  isplitl [H1b]; · iexact H1b
  isplitl [H2a]; · iexact H2a
  isplitl [H2b]; · iexact H2b
  isplitl [H3]; · iexact H3
  isplitl [Hv0]; · iexact Hv0
  isplitl [H0]; · iexact H0
  iexact Hv1

/-- What the launch hands the region of the scoped buffers is the invariant before the first point. -/
theorem hin (c : Dev nD) : iprop((emp : sProp 𝕄) ∗ Pipeline.scopedRest spec0 c) ⊢ (dats m 0 c).Φ 0 := by
  rw [show (dats m 0 c).Φ 0 = PhiS m c 0 (Nat.zero_le _) from rfl, PhiS_zero m c 0 _ rfl, scratch_eq]
  iintro ⟨-, H⟩; iexact H

/-- After the last point the invariant gives the scoped buffers back: the accumulator's contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 10 := N_0; omega), scratch_eq]
  iintro H
  isplitr; · iempintro
  iexists _; iexact H

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (entry m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := entry m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := hin m) (hout := hout m)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h => h)

/-- info: 'Cert.KernelIdeal.Fr.run_main' depends on axioms: [propext, Classical.choice, Quot.sound] -/
#guard_msgs in #print axioms run_main

/-- The result array after the run, on core `c`: what the one write-back, at the last point, leaves. -/
abbrev resultArr (c : Dev nD) : Buf (Elt F) ((c : Thread nD τ).loc main_v1) := (dats m 0 c).arrAt 7 cfg0.N

/-- The run's post read at @main's buffers: the result at `resultArr`, the five arguments as launched (four are
    input windows' arrays, never written; the bias vector bypasses the region). -/
theorem run_args : θ_run defs (onTc (τ := τ) (main (F := F))) ⟨m, fun _ => 0, ρ⟩ (fun r => ∀ c : Dev nD,
      r.2.mem ((c.tc : Thread nD τ).loc main_v1) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 7,
      ((h c).1 6).trans (((dats m 0 c).arrAt_in 6 rfl _).trans ((A_eq m c 6).trans (entry_arg0 m c))),
      ((h c).1 0).trans (((dats m 0 c).arrAt_in 0 rfl _).trans ((A_eq m c 0).trans (entry_arg1 m c))),
      ((h c).1 2).trans (((dats m 0 c).arrAt_in 2 rfl _).trans ((A_eq m c 2).trans (entry_arg2 m c))),
      ((h c).1 4).trans (((dats m 0 c).arrAt_in 4 rfl _).trans ((A_eq m c 4).trans (entry_arg3 m c))),
      ((h c).2 main_arg4 (Pipeline.mem_restRefs_of main_arg4 (by decide) (by decide))).trans (entry_arg4 m c)⟩) (run_main m ρ)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_args m ρ)

end Cert.KernelIdeal.Fr

end
-- ==== Proof.KI.Pure.lean ====
/-
  The kernel's arithmetic as pure functions of whole arrays, at any float instance.

  The grid has ten points. Point `t` reads rows [10000 t, 10000 t + 5000) and [10000 t + 5000, 10000 t + 10000)
  of the metapath matrix and of the card embeddings (two windows on each array, at the even and the odd block of
  5000 rows), adds the two halves' contributions to a 256 × 32 accumulator, which starts at zero, and at the last
  point multiplies the batch pools by the accumulator. `rowsA` / `rowsB` name a block of 5000 rows, `step` one
  point's update (the body's stored values, composed), `accAt` the accumulator after each point, `result` the
  product stored at the last point.
-/
import proofs.«161342_g73882027425809_cont_9to1c4b_278_11_alg».proof.Proof.Gen.KernelIdeal.Skeleton
import Idealize.ShloMosaic.Lib.ValueIdx

noncomputable section

namespace Cert.KernelIdeal.Pure

open Cert.KernelIdeal Cert.KernelIdeal.Gen
open Idealize.ShloMosaic Idealize.ShloMosaic.ValueIdx

variable {F : FTy → Type} [FloatOps F]

/-- Rows [5000 j, 5000 j + 5000) of a 100000 × 256 array (the row taken modulo 100000, so that the block is defined
    for every `j`; for `j < 20` nothing wraps). -/
def rowsA (A : Vec F S100000x256 .f32) (j : ℕ) : Vec F S5000x256 .f32 :=
  fun y => A (ix2 (⟨(5000 * j + (y 0).val) % 100000, Nat.mod_lt _ (by norm_num)⟩ : Fin 100000) (⟨(y 1).val, idx2_lt1 y⟩ : Fin 256))

/-- Rows [5000 j, 5000 j + 5000) of a 100000 × 128 array. -/
def rowsB (A : Vec F S100000x128 .f32) (j : ℕ) : Vec F S5000x128 .f32 :=
  fun y => A (ix2 (⟨(5000 * j + (y 0).val) % 100000, Nat.mod_lt _ (by norm_num)⟩ : Fin 100000) (⟨(y 1).val, idx2_lt1 y⟩ : Fin 128))

/-- One grid point's update of the accumulator from the point's four blocks: the first half's contribution is added,
    then the second half's. -/
def stepBlocks (acc : Vec F S256x32 .f32) (mA mB : Vec F S5000x256 .f32) (cA cB : Vec F S5000x128 .f32)
    (W : Vec F S128x32 .f32) (b : Vec F S1x32 .f32) : Vec F S256x32 .f32 :=
  k0_pay1 (k0_pay5 cB W b) (k0_pay4 cA W b acc mA) mB

/-- Point `t`'s update, its blocks read off the whole arrays. -/
def step (acc : Vec F S256x32 .f32) (mp : Vec F S100000x256 .f32) (card : Vec F S100000x128 .f32)
    (W : Vec F S128x32 .f32) (b : Vec F S1x32 .f32) (t : ℕ) : Vec F S256x32 .f32 :=
  stepBlocks acc (rowsA mp (2 * t)) (rowsA mp (2 * t + 1)) (rowsB card (2 * t)) (rowsB card (2 * t + 1)) W b

/-- The accumulator after point `t`: zero updated by the points `0 … t`. -/
def accAt (mp : Vec F S100000x256 .f32) (card : Vec F S100000x128 .f32) (W : Vec F S128x32 .f32) (b : Vec F S1x32 .f32) :
    ℕ → Vec F S256x32 .f32
  | 0 => step (k0_pay3 (F := F)) mp card W b 0
  | t + 1 => step (accAt mp card W b t) mp card W b (t + 1)

/-- What the last point stores into the result: the batch pools times the accumulator after point 9. -/
def result (pools : Vec F S4096x256 .f32) (mp : Vec F S100000x256 .f32) (card : Vec F S100000x128 .f32)
    (W : Vec F S128x32 .f32) (b : Vec F S1x32 .f32) : Vec F S4096x32 .f32 :=
  k0_pay2 pools (accAt mp card W b 9)

end Cert.KernelIdeal.Pure

end
-- ==== Proof.KI.Pieces.lean ====
/-
  What each case of the body leaves, as the body's stored values composed: the accumulator after a point is the
  point's two contributions added to what it held (to zero at the first point), and the result's buffer after the last
  point is the batch pools times that accumulator.
-/
import proofs.«161342_g73882027425809_cont_9to1c4b_278_11_alg».proof.Proof.KI.Frame
import proofs.«161342_g73882027425809_cont_9to1c4b_278_11_alg».proof.Proof.KI.Pure
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two zero offsets, as the constant function. -/
theorem hz2 : (![0, 0] : Fin 2 → Nat) = fun _ => 0 := funext fun a => by fin_cases a <;> rfl

/-- A load of the whole buffer after stores of which the LAST wrote the whole buffer reads that store's value,
    whatever the earlier stores were. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The first point: every store writes the whole accumulator, so the zero fill is read back, the first half's
    contribution added to it and stored, that read back, and the second half's added: the last store's value. -/
theorem accFirst_eq (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : isFirst i) (hc1 : ¬isLast i) (x0 x1 : Vec F S5000x256 .f32) (x2 x3 : Vec F S5000x128 .f32) (x4 : Vec F S128x32 .f32) (x5 : Vec F S1x32 .f32) (x6 : Vec F S4096x256 .f32) :
    accFirst c i arg1 harg1 arg2 harg2 arg3 harg3 arg4 harg4 arg5 harg5 arg6 harg6 arg7 harg7 arg8 harg8 arg9 harg9 hc0 hc1 x0 x1 x2 x3 x4 x5 x6 = Pure.stepBlocks (k0_pay3 (F := F)) x0 x1 x2 x3 x4 x5 := by
  unfold accFirst
  rw [View.read_writes_eq_canon _ _ _ (coverFirst c i arg1 harg1 arg2 harg2 arg3 harg3 arg4 harg4 arg5 harg5 arg6 harg6 arg7 harg7 arg8 harg8 arg9 harg9 hc0 hc1 x0 x1 x2 x3 x4 x5 x6)]
  unfold runFirst
  dsimp only
  sl_unfold_words
  rw [View.canon_cons_unit_zero (S := S256x32) hz2]
  simp only [View.readAt_eq_ld, harg1.read_unread, harg2.read_unread, harg3.read_unread, harg4.read_unread, harg5.read_unread, harg6.read_unread, harg7.read_unread, harg9.read_unread,
    View.ld_unit_zero (S := S5000x256) hz2, View.ld_unit_zero (S := S5000x128) hz2, View.ld_unit_zero (S := S128x32) hz2, View.ld_unit_zero (S := S1x32) hz2, View.ld_unit_zero (S := S256x32) hz2, View.ld_unit_zero (S := S4096x256) hz2,
    readCov_cons_unit_zero (S := S256x32) _ hz2]
  rfl

/-- A middle point: the same two updates, from the contents the point before left. -/
theorem accMid_eq (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : ¬isLast i) (x0 x1 : Vec F S5000x256 .f32) (x2 x3 : Vec F S5000x128 .f32) (x4 : Vec F S128x32 .f32) (x5 : Vec F S1x32 .f32) (x6 : Vec F S4096x256 .f32) (xs : Vec F S256x32 .f32) :
    accMid c i arg1 harg1 arg2 harg2 arg3 harg3 arg4 harg4 arg5 harg5 arg6 harg6 arg7 harg7 arg8 harg8 arg9 harg9 hc0 hc1 x0 x1 x2 x3 x4 x5 x6 xs = Pure.stepBlocks xs x0 x1 x2 x3 x4 x5 := by
  unfold accMid
  rw [View.read_writes_eq_canon _ _ _ (coverMid c i arg1 harg1 arg2 harg2 arg3 harg3 arg4 harg4 arg5 harg5 arg6 harg6 arg7 harg7 arg8 harg8 arg9 harg9 hc0 hc1 x0 x1 x2 x3 x4 x5 x6 xs)]
  unfold runMid
  dsimp only
  sl_unfold_words
  rw [View.canon_cons_unit_zero (S := S256x32) hz2]
  simp only [View.readAt_eq_ld, harg1.read_unread, harg2.read_unread, harg3.read_unread, harg4.read_unread, harg5.read_unread, harg6.read_unread, harg7.read_unread, harg9.read_unread,
    View.ld_unit_zero (S := S5000x256) hz2, View.ld_unit_zero (S := S5000x128) hz2, View.ld_unit_zero (S := S128x32) hz2, View.ld_unit_zero (S := S1x32) hz2, View.ld_unit_zero (S := S256x32) hz2, View.ld_unit_zero (S := S4096x256) hz2,
    readCov_cons_unit_zero (S := S256x32) _ hz2]
  rfl

/-- The last point leaves the accumulator as a middle point does. -/
theorem accLast_eq (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) :
    accLast c i arg1 harg1 arg2 harg2 arg3 harg3 arg4 harg4 arg5 harg5 arg6 harg6 arg7 harg7 arg8 harg8 arg9 harg9 hc0 hc1 x0 x1 x2 x3 x4 x5 x6 xs = Pure.stepBlocks xs x0 x1 x2 x3 x4 x5 := by
  unfold accLast
  rw [View.read_writes_eq_canon _ _ _ (coverLastAcc c i arg1 harg1 arg2 harg2 arg3 harg3 arg4 harg4 arg5 harg5 arg6 harg6 arg7 harg7 arg8 harg8 arg9 harg9 hc0 hc1 x0 x1 x2 x3 x4 x5 x6 xs)]
  unfold runLast
  dsimp only
  sl_unfold_words
  rw [View.canon_cons_unit_zero (S := S256x32) hz2]
  simp only [View.readAt_eq_ld, harg1.read_unread, harg2.read_unread, harg3.read_unread, harg4.read_unread, harg5.read_unread, harg6.read_unread, harg7.read_unread, harg9.read_unread,
    View.ld_unit_zero (S := S5000x256) hz2, View.ld_unit_zero (S := S5000x128) hz2, View.ld_unit_zero (S := S128x32) hz2, View.ld_unit_zero (S := S1x32) hz2, View.ld_unit_zero (S := S256x32) hz2, View.ld_unit_zero (S := S4096x256) hz2,
    readCov_cons_unit_zero (S := S256x32) _ hz2]
  rfl

/-- The result's one store: the batch pools times the accumulator just stored, read back whole. -/
theorem outLast_eq (c : Dev nD) (i : grid0.Coords) (arg1 : Memref sig .tc .vmem S5000x256 .f32) (harg1 : arg1.IsWhole) (arg2 : Memref sig .tc .vmem S5000x256 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S4096x256 .f32) (harg7 : arg7.IsWhole) (arg8 : Memref sig .tc .vmem S4096x32 .f32) (harg8 : arg8.IsWhole) (arg9 : Memref sig .tc .vmem S256x32 .f32) (harg9 : arg9.IsWhole) (hc0 : ¬isFirst i) (hc1 : isLast i) (x0 x1 : Vec F S5000x256 .f32) (x2 x3 : Vec F S5000x128 .f32) (x4 : Vec F S128x32 .f32) (x5 : Vec F S1x32 .f32) (x6 : Vec F S4096x256 .f32) (xs : Vec F S256x32 .f32) :
    outLast c i arg1 harg1 arg2 harg2 arg3 harg3 arg4 harg4 arg5 harg5 arg6 harg6 arg7 harg7 arg8 harg8 arg9 harg9 hc0 hc1 x0 x1 x2 x3 x4 x5 x6 xs = k0_pay2 x6 (Pure.stepBlocks xs x0 x1 x2 x3 x4 x5) := by
  unfold outLast
  rw [View.read_writes_eq_canon _ _ _ (coverLastOut c i arg1 harg1 arg2 harg2 arg3 harg3 arg4 harg4 arg5 harg5 arg6 harg6 arg7 harg7 arg8 harg8 arg9 harg9 hc0 hc1 x0 x1 x2 x3 x4 x5 x6 xs)]
  unfold runLast
  dsimp only
  sl_unfold_words
  rw [View.canon_unit_zero (S := S4096x32) hz2]
  simp only [View.readAt_eq_ld, harg1.read_unread, harg2.read_unread, harg3.read_unread, harg4.read_unread, harg5.read_unread, harg6.read_unread, harg7.read_unread, harg9.read_unread,
    View.ld_unit_zero (S := S5000x256) hz2, View.ld_unit_zero (S := S5000x128) hz2, View.ld_unit_zero (S := S128x32) hz2, View.ld_unit_zero (S := S1x32) hz2, View.ld_unit_zero (S := S256x32) hz2, View.ld_unit_zero (S := S4096x256) hz2,
    readCov_cons_unit_zero (S := S256x32) _ hz2]
  rfl

end Cert.KernelIdeal.Fr

end
-- ==== Proof.KI.Blocks.lean ====
/-
  A window's block at a grid point, read off the whole arrays.

  Window 0 (1) stages block 2t (2t + 1) of 5000 rows of the metapath matrix at point t, window 2 (3) the same block of
  the card embeddings; windows 4, 5, 6 stage the dense weights, the bias row and the batch pools whole. The bias row
  is the host reshape of the bias vector.
-/
import proofs.«161342_g73882027425809_cont_9to1c4b_278_11_alg».proof.Proof.KI.Shared
import proofs.«161342_g73882027425809_cont_9to1c4b_278_11_alg».proof.Proof.KI.Pure
import Idealize.ShloMosaic.Lib.Pipeline.Value
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ### The windows' block indices, decided over the ten grid points -/

/-- Window 0 is at block (2 t, 0) at point t. -/
theorem index0 : ∀ t : Fin cfg0.N, win0_0.index t (0 : Fin 2) = 2 * t.val ∧ win0_0.index t (1 : Fin 2) = 0 :=
  (by decide +kernel : ∀ t : Fin grid0.N, _)

/-- Window 1 is at block (2 t + 1, 0) at point t. -/
theorem index1 : ∀ t : Fin cfg0.N, win0_1.index t (0 : Fin 2) = 2 * t.val + 1 ∧ win0_1.index t (1 : Fin 2) = 0 :=
  (by decide +kernel : ∀ t : Fin grid0.N, _)

/-- Window 2 is at block (2 t, 0) at point t. -/
theorem index2 : ∀ t : Fin cfg0.N, win0_2.index t (0 : Fin 2) = 2 * t.val ∧ win0_2.index t (1 : Fin 2) = 0 :=
  (by decide +kernel : ∀ t : Fin grid0.N, _)

/-- Window 3 is at block (2 t + 1, 0) at point t. -/
theorem index3 : ∀ t : Fin cfg0.N, win0_3.index t (0 : Fin 2) = 2 * t.val + 1 ∧ win0_3.index t (1 : Fin 2) = 0 :=
  (by decide +kernel : ∀ t : Fin grid0.N, _)

/-- Window 4 stays at block (0, 0). -/
theorem index4 : ∀ t : Fin cfg0.N, win0_4.index t (0 : Fin 2) = 0 ∧ win0_4.index t (1 : Fin 2) = 0 :=
  (by decide +kernel : ∀ t : Fin grid0.N, _)

/-- Window 5 stays at block (0, 0). -/
theorem index5 : ∀ t : Fin cfg0.N, win0_5.index t (0 : Fin 2) = 0 ∧ win0_5.index t (1 : Fin 2) = 0 :=
  (by decide +kernel : ∀ t : Fin grid0.N, _)

/-- Window 6 stays at block (0, 0). -/
theorem index6 : ∀ t : Fin cfg0.N, win0_6.index t (0 : Fin 2) = 0 ∧ win0_6.index t (1 : Fin 2) = 0 :=
  (by decide +kernel : ∀ t : Fin grid0.N, _)

/-! ### The blocks: coordinate y of block (b, 0) is the array's entry (b · rows + y₀, y₁); for t < 10 no row wraps -/

theorem blk0_eq (c : Dev nD) (t : Fin cfg0.N) :
    (blk m c 0 t : Vec F S5000x256 .f32) = Pure.rowsA (entry m c main_arg1 : Vec F S100000x256 .f32) (2 * t.val) := by
  funext y
  unfold blk Pure.rowsA
  show entry m c main_arg1 (((cfg0.win 0).blk t).view.emb y) = _
  refine congrArg _ ?_
  obtain ⟨e0, e1⟩ := index0 t
  have ht : t.val < 10 := t.isLt
  funext a; apply Fin.ext
  match a with
  | ⟨0, _⟩ =>
    show win0_0.index t (0 : Fin 2) * 5000 + 1 * (y 0).val = (5000 * (2 * t.val) + (y 0).val) % 100000
    have hy : (y 0).val < 5000 := (y 0).isLt
    omega
  | ⟨1, _⟩ =>
    show win0_0.index t (1 : Fin 2) * 256 + 1 * (y 1).val = (y 1).val
    omega

theorem blk1_eq (c : Dev nD) (t : Fin cfg0.N) :
    (blk m c 1 t : Vec F S5000x256 .f32) = Pure.rowsA (entry m c main_arg1 : Vec F S100000x256 .f32) (2 * t.val + 1) := by
  funext y
  unfold blk Pure.rowsA
  show entry m c main_arg1 (((cfg0.win 1).blk t).view.emb y) = _
  refine congrArg _ ?_
  obtain ⟨e0, e1⟩ := index1 t
  have ht : t.val < 10 := t.isLt
  funext a; apply Fin.ext
  match a with
  | ⟨0, _⟩ =>
    show win0_1.index t (0 : Fin 2) * 5000 + 1 * (y 0).val = (5000 * (2 * t.val + 1) + (y 0).val) % 100000
    have hy : (y 0).val < 5000 := (y 0).isLt
    omega
  | ⟨1, _⟩ =>
    show win0_1.index t (1 : Fin 2) * 256 + 1 * (y 1).val = (y 1).val
    omega

theorem blk2_eq (c : Dev nD) (t : Fin cfg0.N) :
    (blk m c 2 t : Vec F S5000x128 .f32) = Pure.rowsB (entry m c main_arg2 : Vec F S100000x128 .f32) (2 * t.val) := by
  funext y
  unfold blk Pure.rowsB
  show entry m c main_arg2 (((cfg0.win 2).blk t).view.emb y) = _
  refine congrArg _ ?_
  obtain ⟨e0, e1⟩ := index2 t
  have ht : t.val < 10 := t.isLt
  funext a; apply Fin.ext
  match a with
  | ⟨0, _⟩ =>
    show win0_2.index t (0 : Fin 2) * 5000 + 1 * (y 0).val = (5000 * (2 * t.val) + (y 0).val) % 100000
    have hy : (y 0).val < 5000 := (y 0).isLt
    omega
  | ⟨1, _⟩ =>
    show win0_2.index t (1 : Fin 2) * 128 + 1 * (y 1).val = (y 1).val
    omega

theorem blk3_eq (c : Dev nD) (t : Fin cfg0.N) :
    (blk m c 3 t : Vec F S5000x128 .f32) = Pure.rowsB (entry m c main_arg2 : Vec F S100000x128 .f32) (2 * t.val + 1) := by
  funext y
  unfold blk Pure.rowsB
  show entry m c main_arg2 (((cfg0.win 3).blk t).view.emb y) = _
  refine congrArg _ ?_
  obtain ⟨e0, e1⟩ := index3 t
  have ht : t.val < 10 := t.isLt
  funext a; apply Fin.ext
  match a with
  | ⟨0, _⟩ =>
    show win0_3.index t (0 : Fin 2) * 5000 + 1 * (y 0).val = (5000 * (2 * t.val + 1) + (y 0).val) % 100000
    have hy : (y 0).val < 5000 := (y 0).isLt
    omega
  | ⟨1, _⟩ =>
    show win0_3.index t (1 : Fin 2) * 128 + 1 * (y 1).val = (y 1).val
    omega

theorem blk4_eq (c : Dev nD) (t : Fin cfg0.N) : (blk m c 4 t : Vec F S128x32 .f32) = (entry m c main_arg3 : Vec F S128x32 .f32) := by
  funext y
  unfold blk
  show entry m c main_arg3 (((cfg0.win 4).blk t).view.emb y) = entry m c main_arg3 y
  refine congrArg _ ?_
  obtain ⟨e0, e1⟩ := index4 t
  funext a; apply Fin.ext
  match a with
  | ⟨0, _⟩ =>
    show win0_4.index t (0 : Fin 2) * 128 + 1 * (y 0).val = (y 0).val
    omega
  | ⟨1, _⟩ =>
    show win0_4.index t (1 : Fin 2) * 32 + 1 * (y 1).val = (y 1).val
    omega

theorem blk5_eq (c : Dev nD) (t : Fin cfg0.N) : (blk m c 5 t : Vec F S1x32 .f32) = (entry m c main_v0 : Vec F S1x32 .f32) := by
  funext y
  unfold blk
  show entry m c main_v0 (((cfg0.win 5).blk t).view.emb y) = entry m c main_v0 y
  refine congrArg _ ?_
  obtain ⟨e0, e1⟩ := index5 t
  funext a; apply Fin.ext
  match a with
  | ⟨0, _⟩ =>
    show win0_5.index t (0 : Fin 2) * 1 + 1 * (y 0).val = (y 0).val
    omega
  | ⟨1, _⟩ =>
    show win0_5.index t (1 : Fin 2) * 32 + 1 * (y 1).val = (y 1).val
    omega

theorem blk6_eq (c : Dev nD) (t : Fin cfg0.N) : (blk m c 6 t : Vec F S4096x256 .f32) = (entry m c main_arg0 : Vec F S4096x256 .f32) := by
  funext y
  unfold blk
  show entry m c main_arg0 (((cfg0.win 6).blk t).view.emb y) = entry m c main_arg0 y
  refine congrArg _ ?_
  obtain ⟨e0, e1⟩ := index6 t
  funext a; apply Fin.ext
  match a with
  | ⟨0, _⟩ =>
    show win0_6.index t (0 : Fin 2) * 4096 + 1 * (y 0).val = (y 0).val
    omega
  | ⟨1, _⟩ =>
    show win0_6.index t (1 : Fin 2) * 256 + 1 * (y 1).val = (y 1).val
    omega

/-- The bias row as the region finds it is the bias vector, entry by entry. -/
theorem entry_v0_apply (c : Dev nD) (q : Fin 32) :
    (entry m c main_v0 : Vec F S1x32 .f32) (ix2 (0 : Fin 1) q) = (m ((c : Thread nD τ).loc main_arg4) : Vec F S32 .f32) (ix1 q) := by
  show StableHlo.after hostOps0 (fun b => m (c, b)) (Proc.devRef .tc main_v0) (ix2 (0 : Fin 1) q) = _
  dsimp only [hostOps0]
  after_results
  exact shapeCast_a_1a_apply (m ((c : Thread nD τ).loc main_arg4) : Vec F S32 .f32) shapeCasts_S32_S1x32 0 q

end Cert.KernelIdeal.Fr

end
-- ==== Proof.KI.Trace.lean ====
/-
  The accumulator and the result, point by point, as functions of the whole arrays.

  By induction on the point: the accumulator after point `n` is zero updated by the points `0 … n`, each update read
  off the metapath matrix's and the card embeddings' blocks `2n` and `2n + 1` of 5000 rows. At the last point the
  result's buffer holds the batch pools times that accumulator.
-/
import proofs.«161342_g73882027425809_cont_9to1c4b_278_11_alg».proof.Proof.KI.Pieces
import proofs.«161342_g73882027425809_cont_9to1c4b_278_11_alg».proof.Proof.KI.Blocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After point `n` the accumulator is `Pure.accAt` of the arrays as the region finds them. -/
theorem acc_trace (c : Dev nD) : ∀ (n : ℕ) (hn : n < cfg0.N),
    (stAt m c n hn).2 = Pure.accAt (entry m c main_arg1 : Vec F S100000x256 .f32) (entry m c main_arg2 : Vec F S100000x128 .f32) (entry m c main_arg3 : Vec F S128x32 .f32) (entry m c main_v0 : Vec F S1x32 .f32) n
  | 0, hn => by
    rw [show stAt m c 0 hn = _ from stAt_first m c ⟨0, hn⟩ rfl (show ¬(0 : ℕ) = 9 by decide)]
    dsimp only
    rw [accFirst_eq, blk0_eq, blk1_eq, blk2_eq, blk3_eq, blk4_eq, blk5_eq]
    rfl
  | n + 1, hn => by
    have e := acc_trace c n (Nat.lt_of_succ_lt hn)
    by_cases h9 : n + 1 = 9
    · rw [show stAt m c (n + 1) hn = _ from stAt_last m c ⟨n + 1, hn⟩ (Nat.succ_ne_zero n) h9]
      dsimp only
      rw [accLast_eq, blk0_eq, blk1_eq, blk2_eq, blk3_eq, blk4_eq, blk5_eq]
      show Pure.stepBlocks (stAt m c n _).2 _ _ _ _ _ _ = Pure.stepBlocks (Pure.accAt (entry m c main_arg1 : Vec F S100000x256 .f32) (entry m c main_arg2 : Vec F S100000x128 .f32) (entry m c main_arg3 : Vec F S128x32 .f32) (entry m c main_v0 : Vec F S1x32 .f32) n) _ _ _ _ _ _
      rw [e]
    · rw [show stAt m c (n + 1) hn = _ from stAt_mid m c ⟨n + 1, hn⟩ (Nat.succ_ne_zero n) h9]
      dsimp only
      rw [accMid_eq, blk0_eq, blk1_eq, blk2_eq, blk3_eq, blk4_eq, blk5_eq]
      show Pure.stepBlocks (stAt m c n _).2 _ _ _ _ _ _ = Pure.stepBlocks (Pure.accAt (entry m c main_arg1 : Vec F S100000x256 .f32) (entry m c main_arg2 : Vec F S100000x128 .f32) (entry m c main_arg3 : Vec F S128x32 .f32) (entry m c main_v0 : Vec F S1x32 .f32) n) _ _ _ _ _ _
      rw [e]

/-- After the last point the result's buffer holds the batch pools times the accumulator. -/
theorem out_trace (c : Dev nD) (h9 : 9 < cfg0.N) :
    (stAt m c 9 h9).1 = Pure.result (entry m c main_arg0 : Vec F S4096x256 .f32) (entry m c main_arg1 : Vec F S100000x256 .f32) (entry m c main_arg2 : Vec F S100000x128 .f32) (entry m c main_arg3 : Vec F S128x32 .f32) (entry m c main_v0 : Vec F S1x32 .f32) := by
  have e := acc_trace m c 8 (Nat.lt_of_succ_lt h9)
  rw [show stAt m c 9 h9 = _ from stAt_last m c ⟨9, h9⟩ (show ¬(9 : ℕ) = 0 by decide) rfl]
  dsimp only
  rw [outLast_eq, blk0_eq, blk1_eq, blk2_eq, blk3_eq, blk4_eq, blk5_eq, blk6_eq]
  show k0_pay2 _ (Pure.stepBlocks (stAt m c 8 _).2 _ _ _ _ _ _) = k0_pay2 _ (Pure.stepBlocks (Pure.accAt (entry m c main_arg1 : Vec F S100000x256 .f32) (entry m c main_arg2 : Vec F S100000x128 .f32) (entry m c main_arg3 : Vec F S128x32 .f32) (entry m c main_v0 : Vec F S1x32 .f32) 8) _ _ _ _ _ _)
  rw [e]

end Cert.KernelIdeal.Fr

end
-- ==== Proof.KI.Final.lean ====
/-
  The result array after the run.

  The result's window has one block, the whole 4096 × 32 array, and is written back once, after the last grid point.
  So after the run the array holds what the body left in the window's buffer there: the batch pools times the
  accumulator after point 9.
-/
import proofs.«161342_g73882027425809_cont_9to1c4b_278_11_alg».proof.Proof.KI.Launch
import proofs.«161342_g73882027425809_cont_9to1c4b_278_11_alg».proof.Proof.KI.Trace
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window's one block index is (0, 0) at every point. -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The grid's last point. -/
def tLast : Fin cfg0.N := ⟨9, by have h : cfg0.N = 10 := N_0; omega⟩

theorem resultArr_eq (c : Dev nD) :
    resultArr m c = (Pure.result (entry m c main_arg0 : Vec F S4096x256 .f32) (entry m c main_arg1 : Vec F S100000x256 .f32) (entry m c main_arg2 : Vec F S100000x128 .f32) (entry m c main_arg3 : Vec F S128x32 .f32) (entry m c main_v0 : Vec F S1x32 .f32) : Vec F S4096x32 .f32) := by
  refine (dats m 0 c).arrAt_eq_of_cover 7 _ (fun t hf => ?_) (fun i => ?_)
  · have hN : t.val < 10 := lt_of_lt_of_eq t.isLt (show cfg0.N = 10 from N_0)
    have h9 : t.val = 9 := by have := (flush0_7 t).mp hf; omega
    obtain ⟨e0, e1⟩ := index7 t
    show (cfg0.win 7).cut (grid0.coords t) ((dats m 0 c).after 7 t) = _
    rw [after7]
    obtain ⟨n, hn⟩ := t
    simp only at h9
    subst h9
    rw [out_trace m c hn]
    funext j
    show Pure.result _ _ _ _ _ j = Pure.result _ _ _ _ _ (((cfg0.win 7).blk ⟨9, hn⟩).view.emb j)
    congr 1
    funext a; apply Fin.ext
    match a with
    | ⟨0, _⟩ => show (j 0).val = win0_7.index ⟨9, hn⟩ (0 : Fin 2) * 4096 + 1 * (j 0).val; omega
    | ⟨1, _⟩ => show (j 1).val = win0_7.index ⟨9, hn⟩ (1 : Fin 2) * 32 + 1 * (j 1).val; omega
  · refine ⟨tLast, (flush0_7 tLast).mpr rfl, ?_⟩
    obtain ⟨e0, e1⟩ := index7 tLast
    show i ∈ ((View.whole main_v1).slice (win0_7.rect tLast)).set
    rw [View.set_slice_whole, Rect.mem_set_unit]
    intro a
    match a with
    | ⟨0, _⟩ =>
      show win0_7.index tLast (0 : Fin 2) * 4096 ≤ (i 0).val ∧ (i 0).val < win0_7.index tLast (0 : Fin 2) * 4096 + 4096
      have hi : (i 0).val < 4096 := (i 0).isLt
      omega
    | ⟨1, _⟩ =>
      show win0_7.index tLast (1 : Fin 2) * 32 ≤ (i 1).val ∧ (i 1).val < win0_7.index tLast (1 : Fin 2) * 32 + 32
      have hi : (i 1).val < 32 := (i 1).isLt
      omega

end Cert.KernelIdeal.Fr

end
-- ==== Proof.Spec.lean ====
/-
  The function both programs compute, over the extended reals, index by index.

  A dense layer with swish activation is applied to every row of the card embeddings,
      dense n q = (∑ k, card[n, k] · W[k, q]) + b[q],     swish x = x · logistic x,
  the activations are contracted with the metapath matrix over its 100000 rows,
      path p q = ∑ n, meta[n, p] · swish (dense n q),
  and the batch pools are applied to the result,
      out i q = ∑ p, pools[i, p] · path p q.
-/
import Idealize.ShloMosaic.PureOps.Ideal
import Idealize.ShloMosaic.Lib.ValueIdx

noncomputable section

open scoped BigOperators

namespace Cert.Spec

open Idealize.ShloMosaic Idealize.ShloMosaic.ValueIdx

/-- The dense layer before its activation, at row `n` and feature `q`. -/
def dense (card : FVec Ideal ⟨2, ![100000, 128]⟩ .f32) (W : FVec Ideal ⟨2, ![128, 32]⟩ .f32)
    (b : FVec Ideal ⟨1, ![32]⟩ .f32) (n : Fin 100000) (q : Fin 32) : EReal :=
  (∑ k : Fin 128, card (ix2 n k) * W (ix2 k q)) + b (ix1 q)

/-- `x · logistic x`. -/
def swish (x : EReal) : EReal := x * Ideal.logistic x

/-- One term of the contraction over the rows: row `n`'s metapath entry times its activation. -/
def term (mp : FVec Ideal ⟨2, ![100000, 256]⟩ .f32) (card : FVec Ideal ⟨2, ![100000, 128]⟩ .f32)
    (W : FVec Ideal ⟨2, ![128, 32]⟩ .f32) (b : FVec Ideal ⟨1, ![32]⟩ .f32) (p : Fin 256) (q : Fin 32) (n : Fin 100000) : EReal :=
  mp (ix2 n p) * swish (dense card W b n q)

/-- The path embeddings: the activations contracted with the metapath matrix over all rows. -/
def path (mp : FVec Ideal ⟨2, ![100000, 256]⟩ .f32) (card : FVec Ideal ⟨2, ![100000, 128]⟩ .f32)
    (W : FVec Ideal ⟨2, ![128, 32]⟩ .f32) (b : FVec Ideal ⟨1, ![32]⟩ .f32) (p : Fin 256) (q : Fin 32) : EReal :=
  ∑ n : Fin 100000, term mp card W b p q n

/-- The result at batch row `i` and feature `q`. -/
def outAt (pools : FVec Ideal ⟨2, ![4096, 256]⟩ .f32) (mp : FVec Ideal ⟨2, ![100000, 256]⟩ .f32)
    (card : FVec Ideal ⟨2, ![100000, 128]⟩ .f32) (W : FVec Ideal ⟨2, ![128, 32]⟩ .f32) (b : FVec Ideal ⟨1, ![32]⟩ .f32)
    (i : Fin 4096) (q : Fin 32) : EReal :=
  ∑ p : Fin 256, pools (ix2 i p) * path mp card W b p q

/-- The result array. -/
def out (pools : FVec Ideal ⟨2, ![4096, 256]⟩ .f32) (mp : FVec Ideal ⟨2, ![100000, 256]⟩ .f32)
    (card : FVec Ideal ⟨2, ![100000, 128]⟩ .f32) (W : FVec Ideal ⟨2, ![128, 32]⟩ .f32) (b : FVec Ideal ⟨1, ![32]⟩ .f32) :
    FVec Ideal ⟨2, ![4096, 32]⟩ .f32 :=
  fun j => outAt pools mp card W b (j 0) (j 1)

end Cert.Spec

end
-- ==== Proof.KernelValue.lean ====
/-
  At the ideal instance the kernel's result is the specification.
-/
import proofs.«161342_g73882027425809_cont_9to1c4b_278_11_alg».proof.Proof.KI.Pure
import proofs.«161342_g73882027425809_cont_9to1c4b_278_11_alg».proof.Proof.Spec
import Idealize.ShloMosaic.PureOps.Ideal.Laws
import Idealize.ShloMosaic.Lib.Pipeline.Value
import Idealize.ShloMosaic.Lib.ValueLayout

noncomputable section

open scoped BigOperators

namespace Cert.KernelValue

open Cert.KernelIdeal Cert.KernelIdeal.Gen
open Idealize.ShloMosaic Idealize.ShloMosaic.ValueIdx

/-! ## The three contractions' operand indices, axis by axis

Each of the kernel's three products contracts ONE axis. At result index `i` and contraction position `q` the operand
indices are read off axis by axis: the contracted axis carries `q`'s one coordinate, the other axis the result's
coordinate at its position. -/

/-! ### [5000, 128] × [128, 32] → [5000, 32], contracting axis 1 with axis 0 -/

theorem lhs_d1_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_d1_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem rhs_d1_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem rhs_d1_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The dense layer's product into a zero accumulator, at row `r` and feature `q`: the sum over the 128 input
    features. -/
theorem mm1_apply (x : FVec Ideal S5000x128 .f32) (w : FVec Ideal S128x32 .f32) (r : Fin 5000) (q : Fin 32) :
    matmul dot_S5000x128_S128x32_S5000x32_1_0_0_1_n_n none x w (constant (F := Ideal) S5000x32 .f32 0x00000000#32) (ix2 r q)
      = ∑ k : Fin 128, x (ix2 r k) * w (ix2 k q) := by
  refine (Ideal.matmul_constant_zero_apply dot_S5000x128_S128x32_S5000x32_1_0_0_1_n_n none x w (ix2 r q)).trans ?_
  rw [← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 r q) ((contrEquiv1 dot_S5000x128_S128x32_S5000x32_1_0_0_1_n_n 128 rfl rfl).symm k) = ix2 r k := funext fun a => Fin.ext (by
    match a with
    | ⟨0, _⟩ => exact lhs_d1_0 _ _
    | ⟨1, _⟩ => exact (lhs_d1_1 _ _).trans hk)
  have er : dot_S5000x128_S128x32_S5000x32_1_0_0_1_n_n.rhsIdx (ix2 r q) ((contrEquiv1 dot_S5000x128_S128x32_S5000x32_1_0_0_1_n_n 128 rfl rfl).symm k) = ix2 k q := funext fun a => Fin.ext (by
    match a with
    | ⟨0, _⟩ => exact (rhs_d1_0 _ _).trans hk
    | ⟨1, _⟩ => exact rhs_d1_1 _ _)
  rw [el, er]

/-! ### [5000, 256] × [5000, 32] → [256, 32], contracting axis 0 of BOTH operands -/

theorem lhs_d2_0 (i : S256x32.Idx) (q : dot_S5000x256_S5000x32_S256x32_0_0_1_1_n_n.contr.Idx) :
    (dot_S5000x256_S5000x32_S256x32_0_0_1_1_n_n.lhsIdx i q 0).val = (q ⟨0, by decide⟩).val :=
  dot_S5000x256_S5000x32_S256x32_0_0_1_1_n_n.lhsIdx_val_of_single rfl i q
theorem lhs_d2_1 (i : S256x32.Idx) (q : dot_S5000x256_S5000x32_S256x32_0_0_1_1_n_n.contr.Idx) :
    (dot_S5000x256_S5000x32_S256x32_0_0_1_1_n_n.lhsIdx i q 1).val = (i 0).val := by
  unfold DotDims.lhsIdx
  rw [dif_neg (show ¬(1 : Fin S5000x256.rank) ∈ dot_S5000x256_S5000x32_S256x32_0_0_1_1_n_n.lhsBatch by decide), dif_pos (show (1 : Fin S5000x256.rank) ∈ dot_S5000x256_S5000x32_S256x32_0_0_1_1_n_n.lhsNonContracting by decide)]
  rfl
theorem rhs_d2_0 (i : S256x32.Idx) (q : dot_S5000x256_S5000x32_S256x32_0_0_1_1_n_n.contr.Idx) :
    (dot_S5000x256_S5000x32_S256x32_0_0_1_1_n_n.rhsIdx i q 0).val = (q ⟨0, by decide⟩).val :=
  dot_S5000x256_S5000x32_S256x32_0_0_1_1_n_n.rhsIdx_val_of_single rfl i q
theorem rhs_d2_1 (i : S256x32.Idx) (q : dot_S5000x256_S5000x32_S256x32_0_0_1_1_n_n.contr.Idx) :
    (dot_S5000x256_S5000x32_S256x32_0_0_1_1_n_n.rhsIdx i q 1).val = (i 1).val := by
  unfold DotDims.rhsIdx
  rw [dif_neg (show ¬(1 : Fin S5000x32.rank) ∈ dot_S5000x256_S5000x32_S256x32_0_0_1_1_n_n.rhsBatch by decide), dif_pos (show (1 : Fin S5000x32.rank) ∈ dot_S5000x256_S5000x32_S256x32_0_0_1_1_n_n.rhsNonContracting by decide)]
  rfl

/-- A block's contraction over its 5000 rows into a zero accumulator, at path `p` and feature `q`. -/
theorem mm2_apply {φ₁ φ₂ : FTy} (m : FVec Ideal S5000x256 φ₁) (s : FVec Ideal S5000x32 φ₂) (p : Fin 256) (q : Fin 32) :
    matmul dot_S5000x256_S5000x32_S256x32_0_0_1_1_n_n none m s (constant (F := Ideal) S256x32 .f32 0x00000000#32) (ix2 p q)
      = ∑ r : Fin 5000, m (ix2 r p) * s (ix2 r q) := by
  refine (Ideal.matmul_constant_zero_apply dot_S5000x256_S5000x32_S256x32_0_0_1_1_n_n none m s (ix2 p q)).trans ?_
  rw [← Equiv.sum_comp (contrEquiv1 dot_S5000x256_S5000x32_S256x32_0_0_1_1_n_n 5000 rfl rfl).symm]
  refine Finset.sum_congr rfl fun k _ => ?_
  have hk := contrEquiv1_symm_val dot_S5000x256_S5000x32_S256x32_0_0_1_1_n_n 5000 rfl rfl k
  have el : dot_S5000x256_S5000x32_S256x32_0_0_1_1_n_n.lhsIdx (ix2 p q) ((contrEquiv1 dot_S5000x256_S5000x32_S256x32_0_0_1_1_n_n 5000 rfl rfl).symm k) = ix2 k p := funext fun a => Fin.ext (by
    match a with
    | ⟨0, _⟩ => exact (lhs_d2_0 _ _).trans hk
    | ⟨1, _⟩ => exact lhs_d2_1 _ _)
  have er : dot_S5000x256_S5000x32_S256x32_0_0_1_1_n_n.rhsIdx (ix2 p q) ((contrEquiv1 dot_S5000x256_S5000x32_S256x32_0_0_1_1_n_n 5000 rfl rfl).symm k) = ix2 k q := funext fun a => Fin.ext (by
    match a with
    | ⟨0, _⟩ => exact (rhs_d2_0 _ _).trans hk
    | ⟨1, _⟩ => exact rhs_d2_1 _ _)
  rw [el, er]

/-! ### [4096, 256] × [256, 32] → [4096, 32], contracting axis 1 with axis 0 -/

theorem lhs_d3_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem lhs_d3_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem rhs_d3_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem rhs_d3_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- The last product into a zero accumulator, at batch row `i` and feature `q`: the sum over the 256 paths. -/
theorem mm3_apply (x : FVec Ideal S4096x256 .f32) (a : FVec Ideal S256x32 .f32) (i : Fin 4096) (q : Fin 32) :
    matmul dot_S4096x256_S256x32_S4096x32_1_0_0_1_n_n none x a (constant (F := Ideal) S4096x32 .f32 0x00000000#32) (ix2 i q)
      = ∑ p : Fin 256, x (ix2 i p) * a (ix2 p q) := by
  refine (Ideal.matmul_constant_zero_apply dot_S4096x256_S256x32_S4096x32_1_0_0_1_n_n none x a (ix2 i q)).trans ?_
  rw [← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 i q) ((contrEquiv1 dot_S4096x256_S256x32_S4096x32_1_0_0_1_n_n 256 rfl rfl).symm k) = ix2 i k := funext fun a => Fin.ext (by
    match a with
    | ⟨0, _⟩ => exact lhs_d3_0 _ _
    | ⟨1, _⟩ => exact (lhs_d3_1 _ _).trans hk)
  have er : dot_S4096x256_S256x32_S4096x32_1_0_0_1_n_n.rhsIdx (ix2 i q) ((contrEquiv1 dot_S4096x256_S256x32_S4096x32_1_0_0_1_n_n 256 rfl rfl).symm k) = ix2 k q := funext fun a => Fin.ext (by
    match a with
    | ⟨0, _⟩ => exact (rhs_d3_0 _ _).trans hk
    | ⟨1, _⟩ => exact rhs_d3_1 _ _)
  rw [el, er]

/-! ## The payloads at a point

At the ideal instance a truncation to bf16 is the identity, a shape cast to the same shape is the identity, the
broadcast of the 1 × 32 bias row reads the row, and each product into a zero accumulator is the plain sum over its
contracted axis. So each payload, read at one index, is an expression in sums of products of the operands' elements. -/

/-- The dense layer's value on a block of 5000 rows, at row `r` and feature `q`. -/
def pre (c : Vec Ideal S5000x128 .f32) (W : Vec Ideal S128x32 .f32) (b1 : Vec Ideal S1x32 .f32) (r : Fin 5000) (q : Fin 32) : EReal :=
  (∑ k : Fin 128, c (ix2 r k) * W (ix2 k q)) + b1 (ix2 (0 : Fin 1) q)

/-- The second half's activations: `swish` of the dense layer's value. -/
theorem pay5_apply (c : Vec Ideal S5000x128 .f32) (W : Vec Ideal S128x32 .f32) (b1 : Vec Ideal S1x32 .f32) (r : Fin 5000) (q : Fin 32) :
    k0_pay5 c W b1 (ix2 r q) = Cert.Spec.swish (pre c W b1 r q) := by
  unfold k0_pay5
  rw [mulf_apply]
  show _ * Ideal.logistic _ = _
  rw [addf_apply, mm1_apply, shapeCast_self, broadcastTo_1b_ab_apply]
  rfl

/-- The first half's update: the accumulator plus the block's contraction of the metapath rows with the activations. -/
theorem pay4_apply (c : Vec Ideal S5000x128 .f32) (W : Vec Ideal S128x32 .f32) (b1 : Vec Ideal S1x32 .f32)
    (acc : Vec Ideal S256x32 .f32) (m : Vec Ideal S5000x256 .f32) (p : Fin 256) (q : Fin 32) :
    k0_pay4 c W b1 acc m (ix2 p q) = acc (ix2 p q) + ∑ r : Fin 5000, m (ix2 r p) * Cert.Spec.swish (pre c W b1 r q) := by
  unfold k0_pay4
  rw [shapeCast_self, addf_apply, mm2_apply]
  refine congrArg (acc (ix2 p q) + ·) (Finset.sum_congr rfl fun r _ => ?_)
  rw [truncf_apply, truncf_apply, mulf_apply]
  show _ * (_ * Ideal.logistic _) = _
  rw [addf_apply, mm1_apply, shapeCast_self, broadcastTo_1b_ab_apply]
  rfl

/-- The second half's update, from the activations `s` it is handed. -/
theorem pay1_apply (s : FVec Ideal S5000x32 .f32) (acc : Vec Ideal S256x32 .f32) (m : Vec Ideal S5000x256 .f32) (p : Fin 256) (q : Fin 32) :
    k0_pay1 s acc m (ix2 p q) = acc (ix2 p q) + ∑ r : Fin 5000, m (ix2 r p) * s (ix2 r q) := by
  unfold k0_pay1
  rw [shapeCast_self, addf_apply, mm2_apply]
  refine congrArg (acc (ix2 p q) + ·) (Finset.sum_congr rfl fun r _ => ?_)
  rw [truncf_apply, truncf_apply]

/-- The accumulator's initial value is zero. -/
theorem pay3_apply (p : Fin 256) (q : Fin 32) : (k0_pay3 (F := Ideal)) (ix2 p q) = 0 := by
  unfold k0_pay3
  rw [shapeCast_self, broadcast_apply]
  exact Ideal.ofBits_zero_f32

/-- The last point's product. -/
theorem pay2_apply (pools : Vec Ideal S4096x256 .f32) (acc : Vec Ideal S256x32 .f32) (i : Fin 4096) (q : Fin 32) :
    k0_pay2 pools acc (ix2 i q) = ∑ p : Fin 256, pools (ix2 i p) * acc (ix2 p q) := by
  unfold k0_pay2
  exact mm3_apply pools acc i q

/-! ## A block's rows are the whole arrays' rows

Block `j` of 5000 rows starts at row `5000 j`; for `j < 20` the row `5000 j + r` is below 100000 and nothing wraps. -/

theorem rowsA_apply (mp : Vec Ideal S100000x256 .f32) (j : ℕ) (hj : j < 20) (r : Fin 5000) (p : Fin 256) :
    Pure.rowsA mp j (ix2 r p) = mp (ix2 (⟨5000 * j + r.val, by have := r.isLt; omega⟩ : Fin 100000) p) := by
  unfold Pure.rowsA
  refine congrArg mp (funext fun a => ?_)
  match a with
  | ⟨0, _⟩ => exact Fin.ext (Nat.mod_eq_of_lt (by have := r.isLt; show 5000 * j + r.val < 100000; omega))
  | ⟨1, _⟩ => rfl

theorem rowsB_apply (card : Vec Ideal S100000x128 .f32) (j : ℕ) (hj : j < 20) (r : Fin 5000) (k : Fin 128) :
    Pure.rowsB card j (ix2 r k) = card (ix2 (⟨5000 * j + r.val, by have := r.isLt; omega⟩ : Fin 100000) k) := by
  unfold Pure.rowsB
  refine congrArg card (funext fun a => ?_)
  match a with
  | ⟨0, _⟩ => exact Fin.ext (Nat.mod_eq_of_lt (by have := r.isLt; show 5000 * j + r.val < 100000; omega))
  | ⟨1, _⟩ => rfl

/-- With the bias row the reshape of the bias vector, a block's dense value at its row `r` is the specification's
    at row `5000 j + r`. -/
theorem pre_rowsB (card : Vec Ideal S100000x128 .f32) (W : Vec Ideal S128x32 .f32) (b1 : Vec Ideal S1x32 .f32) (b : Vec Ideal S32 .f32)
    (hb : ∀ q : Fin 32, b1 (ix2 (0 : Fin 1) q) = b (ix1 q)) (j : ℕ) (hj : j < 20) (r : Fin 5000) (q : Fin 32) :
    pre (Pure.rowsB card j) W b1 r q
      = Cert.Spec.dense card W b (⟨5000 * j + r.val, by have := r.isLt; omega⟩ : Fin 100000) q := by
  unfold pre Cert.Spec.dense
  rw [hb q]
  refine congrArg (· + b (ix1 q)) (Finset.sum_congr rfl fun k _ => ?_)
  rw [rowsB_apply card j hj r k]

/-! ## The accumulator is a partial sum of the specification's terms -/

/-- The specification's term at row `n`, extended by zero past the last row, so that partial sums are sums over
    ranges of naturals. -/
def g (mp : Vec Ideal S100000x256 .f32) (card : Vec Ideal S100000x128 .f32) (W : Vec Ideal S128x32 .f32) (b : Vec Ideal S32 .f32)
    (p : Fin 256) (q : Fin 32) (n : ℕ) : EReal :=
  if h : n < 100000 then Cert.Spec.term mp card W b p q ⟨n, h⟩ else 0

/-- One block's contribution: the terms of its 5000 rows. -/
theorem half_sum (mp : Vec Ideal S100000x256 .f32) (card : Vec Ideal S100000x128 .f32) (W : Vec Ideal S128x32 .f32)
    (b1 : Vec Ideal S1x32 .f32) (b : Vec Ideal S32 .f32) (hb : ∀ q : Fin 32, b1 (ix2 (0 : Fin 1) q) = b (ix1 q))
    (j : ℕ) (hj : j < 20) (p : Fin 256) (q : Fin 32) :
    ∑ r : Fin 5000, Pure.rowsA mp j (ix2 r p) * Cert.Spec.swish (pre (Pure.rowsB card j) W b1 r q)
      = ∑ n ∈ Finset.range 5000, g mp card W b p q (5000 * j + n) := by
  rw [Finset.sum_range]
  refine Finset.sum_congr rfl fun r _ => ?_
  have hr := r.isLt
  rw [rowsA_apply mp j hj r p, pre_rowsB card W b1 b hb j hj r q]
  unfold g
  rw [dif_pos (show 5000 * j + r.val < 100000 by omega)]
  rfl

/-- One grid point's update adds the terms of its 10000 rows. -/
theorem step_apply (acc : Vec Ideal S256x32 .f32) (mp : Vec Ideal S100000x256 .f32) (card : Vec Ideal S100000x128 .f32)
    (W : Vec Ideal S128x32 .f32) (b1 : Vec Ideal S1x32 .f32) (b : Vec Ideal S32 .f32)
    (hb : ∀ q : Fin 32, b1 (ix2 (0 : Fin 1) q) = b (ix1 q)) (t : ℕ) (ht : t < 10) (p : Fin 256) (q : Fin 32) :
    Pure.step acc mp card W b1 t (ix2 p q)
      = acc (ix2 p q) + ∑ n ∈ Finset.range 10000, g mp card W b p q (10000 * t + n) := by
  unfold Pure.step Pure.stepBlocks
  rw [pay1_apply, pay4_apply]
  simp only [pay5_apply]
  rw [half_sum mp card W b1 b hb (2 * t) (by omega) p q, half_sum mp card W b1 b hb (2 * t + 1) (by omega) p q]
  have hs := Finset.sum_range_add (fun n => g mp card W b p q (10000 * t + n)) 5000 5000
  rw [show Finset.range 10000 = Finset.range (5000 + 5000) from rfl, hs, add_assoc]
  refine congrArg (acc (ix2 p q) + ·) (congrArg₂ (· + ·) ?_ ?_)
  · refine Finset.sum_congr rfl fun n _ => congrArg (g mp card W b p q) ?_
    omega
  · refine Finset.sum_congr rfl fun n _ => congrArg (g mp card W b p q) ?_
    omega

/-- After point `t` the accumulator holds the terms of the rows below `10000 (t + 1)`. -/
theorem accAt_apply (mp : Vec Ideal S100000x256 .f32) (card : Vec Ideal S100000x128 .f32)
    (W : Vec Ideal S128x32 .f32) (b1 : Vec Ideal S1x32 .f32) (b : Vec Ideal S32 .f32)
    (hb : ∀ q : Fin 32, b1 (ix2 (0 : Fin 1) q) = b (ix1 q)) (p : Fin 256) (q : Fin 32) :
    ∀ t : ℕ, t < 10 →
      Pure.accAt mp card W b1 t (ix2 p q) = ∑ n ∈ Finset.range (10000 * (t + 1)), g mp card W b p q n := by
  intro t
  induction t with
  | zero =>
    intro _
    show Pure.step (k0_pay3 (F := Ideal)) mp card W b1 0 (ix2 p q) = _
    rw [step_apply _ mp card W b1 b hb 0 (by norm_num) p q, pay3_apply, zero_add]
    refine Finset.sum_congr rfl fun n _ => congrArg (g mp card W b p q) ?_
    omega
  | succ t ih =>
    intro ht
    show Pure.step (Pure.accAt mp card W b1 t) mp card W b1 (t + 1) (ix2 p q) = _
    rw [step_apply _ mp card W b1 b hb (t + 1) ht p q, ih (by omega),
      show 10000 * (t + 1 + 1) = 10000 * (t + 1) + 10000 by ring, Finset.sum_range_add]

/-- With the bias row `b1` the reshape of the bias vector `b`, the product the kernel stores at its last point is the
    specification's result array. -/
theorem result_eq (pools : Vec Ideal S4096x256 .f32) (mp : Vec Ideal S100000x256 .f32) (card : Vec Ideal S100000x128 .f32)
    (W : Vec Ideal S128x32 .f32) (b1 : Vec Ideal S1x32 .f32) (b : Vec Ideal S32 .f32)
    (hb : ∀ q : Fin 32, b1 (ix2 (0 : Fin 1) q) = b (ix1 q)) :
    Cert.KernelIdeal.Pure.result (F := Ideal) pools mp card W b1 = Cert.Spec.out pools mp card W b := by
  funext j
  obtain ⟨i, q, rfl⟩ : ∃ (i : Fin 4096) (q : Fin 32), j = ix2 i q := ⟨j 0, j 1, eq_ix2 j⟩
  unfold Pure.result
  rw [pay2_apply]
  show _ = Cert.Spec.outAt pools mp card W b i q
  unfold Cert.Spec.outAt
  refine Finset.sum_congr rfl fun p _ => congrArg (pools (ix2 i p) * ·) ?_
  rw [accAt_apply mp card W b1 b hb p q 9 (by norm_num)]
  unfold Cert.Spec.path
  rw [show 10000 * (9 + 1) = 100000 from rfl, ← Fin.sum_univ_eq_sum_range]
  refine Finset.sum_congr rfl fun n _ => ?_
  unfold g
  rw [dif_pos n.isLt]

end Cert.KernelValue

end
-- ==== Proof.RefImports.lean ====
/-
  The reference's run and its read-at-an-index lemmas, gathered under one import.
-/
import proofs.«161342_g73882027425809_cont_9to1c4b_278_11_alg».proof.Proof.Gen.ReferenceIdeal.Run
import proofs.«161342_g73882027425809_cont_9to1c4b_278_11_alg».proof.Proof.Gen.ReferenceIdeal.Read
-- ==== Proof.RefValue.lean ====
/-
  At the ideal instance the reference's last stage is the specification.

  The reference is read stage by stage at an index written by its coordinates.  The dense stage at (n, q) is
  (∑ k, card[n, k] · W[k, q]) + b[q]; the activation stage multiplies it by 1 / (1 + exp (−·)), which is the
  logistic function, so it is swish of the dense stage; the contraction with the transposed metapath matrix at
  (p, q) is ∑ n, meta[n, p] · swish (dense n q); and the last contraction at (i, q) is ∑ p, pools[i, p] · path p q.
-/
import proofs.«161342_g73882027425809_cont_9to1c4b_278_11_alg».proof.Proof.RefImports
import proofs.«161342_g73882027425809_cont_9to1c4b_278_11_alg».proof.Proof.Spec

noncomputable section

open scoped BigOperators

namespace Cert.RefValue

open Cert.ReferenceIdeal Cert.ReferenceIdeal.Gen Cert.ReferenceIdeal.Read
open Idealize.ShloMosaic Idealize.ShloMosaic.ValueIdx

/-- The single-precision word 0x3F800000 denotes the number one. -/
theorem word_one : Ideal.ofBits .f32 0x3F800000#32 = 1 := by
  simp [Ideal.ofBits, Ideal.ieee, -EReal.coe_mul]; norm_num

/-! ### The composed index functions, at an index written by its coordinates -/

/-- First contraction, left operand: row n, column k. -/
theorem lidx_v0 (n : Fin 100000) (q : Fin 32) (k : Fin 128) : lidx_main_v0 (ix2 n q) k = ix2 n k :=
  funext fun a => Fin.ext (by match a with | ⟨0, _⟩ => rfl | ⟨1, _⟩ => rfl)

/-- First contraction, right operand: row k, column q. -/
theorem ridx_v0 (n : Fin 100000) (q : Fin 32) (k : Fin 128) : ridx_main_v0 (ix2 n q) k = ix2 k q :=
  funext fun a => Fin.ext (by match a with | ⟨0, _⟩ => rfl | ⟨1, _⟩ => rfl)

/-- The bias is broadcast along the rows: entry (n, q) reads b[q]. -/
theorem idx_bias (n : Fin 100000) (q : Fin 32) : idx_main_v1 (idx_main_v2 (ix2 n q)) = ix1 q :=
  funext fun a => Fin.ext (by match a with | ⟨0, _⟩ => rfl)

/-- Second contraction, left operand (the transposed metapath matrix): row p, column n. -/
theorem lidx_v12 (p : Fin 256) (q : Fin 32) (n : Fin 100000) : lidx_main_v12 (ix2 p q) n = ix2 p n :=
  funext fun a => Fin.ext (by match a with | ⟨0, _⟩ => rfl | ⟨1, _⟩ => rfl)

/-- Second contraction, right operand: row n, column q. -/
theorem ridx_v12 (p : Fin 256) (q : Fin 32) (n : Fin 100000) : ridx_main_v12 (ix2 p q) n = ix2 n q :=
  funext fun a => Fin.ext (by match a with | ⟨0, _⟩ => rfl | ⟨1, _⟩ => rfl)

/-- The transpose swaps the coordinates: entry (p, n) reads meta[n, p]. -/
theorem idx_v11 (p : Fin 256) (n : Fin 100000) : idx_main_v11 (ix2 p n) = ix2 n p :=
  funext fun a => Fin.ext (by match a with | ⟨0, _⟩ => rfl | ⟨1, _⟩ => rfl)

/-- Third contraction, left operand: row i, column p. -/
theorem lidx_v13 (i : Fin 4096) (q : Fin 32) (p : Fin 256) : lidx_main_v13 (ix2 i q) p = ix2 i p :=
  funext fun a => Fin.ext (by match a with | ⟨0, _⟩ => rfl | ⟨1, _⟩ => rfl)

/-- Third contraction, right operand: row p, column q. -/
theorem ridx_v13 (i : Fin 4096) (q : Fin 32) (p : Fin 256) : ridx_main_v13 (ix2 i q) p = ix2 p q :=
  funext fun a => Fin.ext (by match a with | ⟨0, _⟩ => rfl | ⟨1, _⟩ => rfl)

/-! ### The stages -/

/-- The sum of the first contraction and the broadcast bias is the dense layer. -/
theorem dense_at (x2 : (⟨S100000x128, .f32⟩ : BufTy).Contents (Elt Ideal)) (x3 : (⟨S128x32, .f32⟩ : BufTy).Contents (Elt Ideal))
    (x4 : (⟨S32, .f32⟩ : BufTy).Contents (Elt Ideal)) (n : Fin 100000) (q : Fin 32) :
    val_main_v3 (F := Ideal) x2 x3 x4 (ix2 n q) = Cert.Spec.dense x2 x3 x4 n q := by
  rw [val_main_v3_apply, val_main_v0_apply, val_main_v2_apply, val_main_v1_apply, idx_bias, Ideal.addf_def]
  unfold Cert.Spec.dense
  congr 1
  refine Finset.sum_congr rfl fun k _ => ?_
  rw [lidx_v0, ridx_v0]

/-- The dense stage times 1 / (1 + exp (−dense)) is swish of the dense layer. -/
theorem swish_at (x2 : (⟨S100000x128, .f32⟩ : BufTy).Contents (Elt Ideal)) (x3 : (⟨S128x32, .f32⟩ : BufTy).Contents (Elt Ideal))
    (x4 : (⟨S32, .f32⟩ : BufTy).Contents (Elt Ideal)) (n : Fin 100000) (q : Fin 32) :
    val_main_v10 (F := Ideal) x2 x3 x4 (ix2 n q) = Cert.Spec.swish (Cert.Spec.dense x2 x3 x4 n q) := by
  rw [val_main_v10_apply, val_main_v9_apply, val_main_v8_apply, val_main_cst_0_apply, val_main_v7_apply, val_main_v6_apply,
    val_main_cst_apply, val_main_v5_apply, val_main_v4_apply, dense_at]
  simp only [Ideal.mulf_def, Ideal.hostDivf_def, Ideal.ofBits_def, Ideal.addf_def, Ideal.hostUnary_exp_def, Ideal.hostNegf_def,
    Ideal.negf_def, word_one]
  rfl

/-- The contraction of the transposed metapath matrix with the activations is the path embedding. -/
theorem path_at (x1 : (⟨S100000x256, .f32⟩ : BufTy).Contents (Elt Ideal)) (x2 : (⟨S100000x128, .f32⟩ : BufTy).Contents (Elt Ideal))
    (x3 : (⟨S128x32, .f32⟩ : BufTy).Contents (Elt Ideal)) (x4 : (⟨S32, .f32⟩ : BufTy).Contents (Elt Ideal))
    (p : Fin 256) (q : Fin 32) :
    val_main_v12 (F := Ideal) x1 x2 x3 x4 (ix2 p q) = Cert.Spec.path x1 x2 x3 x4 p q := by
  rw [val_main_v12_apply]
  unfold Cert.Spec.path Cert.Spec.term
  refine Finset.sum_congr rfl fun n _ => ?_
  rw [lidx_v12, ridx_v12, val_main_v11_apply, idx_v11, swish_at]

/-- The reference's composed stages, read at the ideal instance, are the specification's result array. -/
theorem ref_eq (x0 : (⟨S4096x256, .f32⟩ : BufTy).Contents (Elt Ideal)) (x1 : (⟨S100000x256, .f32⟩ : BufTy).Contents (Elt Ideal))
    (x2 : (⟨S100000x128, .f32⟩ : BufTy).Contents (Elt Ideal)) (x3 : (⟨S128x32, .f32⟩ : BufTy).Contents (Elt Ideal))
    (x4 : (⟨S32, .f32⟩ : BufTy).Contents (Elt Ideal)) :
    val_main_v13 (F := Ideal) x0 x1 x2 x3 x4 = Cert.Spec.out x0 x1 x2 x3 x4 := by
  funext j
  obtain ⟨i, q, rfl⟩ : ∃ (i : Fin 4096) (q : Fin 32), j = ix2 i q := ⟨j 0, j 1, eq_ix2 j⟩
  rw [val_main_v13_apply]
  show _ = Cert.Spec.outAt x0 x1 x2 x3 x4 i q
  unfold Cert.Spec.outAt
  refine Finset.sum_congr rfl fun p _ => ?_
  rw [lidx_v13, ridx_v13, path_at]

end Cert.RefValue

end
-- ==== Proof.lean ====
/-
  Both programs compute, over the extended reals,
      out[i, q] = ∑ p, pools[i, p] · (∑ n, meta[n, p] · swish(dense[n, q])),   dense = card · W + b,   swish x = x · logistic x.

  The reference does it with three whole contractions; it spells the logistic function as 1 / (1 + exp (−x)), which is
  its definition on the extended reals. The kernel streams the 100000 rows in ten grid points of two half-blocks of
  5000 rows each through one pipelined region, adds each half-block's contribution to a 256 × 32 scratch accumulator
  (reset at the first point; its narrowing to a shorter float format is the identity on the extended reals) and at the
  last point multiplies the batch pools by the accumulator. The accumulator after the last point is the contraction
  over all rows regrouped by blocks: addition of extended reals is commutative and associative, so the regrouping needs
  no finiteness of the inputs.

  The kernel's frame is proved from its body run case by case (first, middle, last point) under an invariant that
  carries the accumulator from point to point; its two streamed arrays are each read through two windows, which hold
  the two halves of the array's share. The same text, in the word-level program's namespace, is that program's frame.
  The reference's frame and value are its run read back; the idealization rewrote nothing, so its ledger is empty.
-/
import proofs.«161342_g73882027425809_cont_9to1c4b_278_11_alg».proof.Defs
import proofs.«161342_g73882027425809_cont_9to1c4b_278_11_alg».proof.Proof.Gen.Kernel
import proofs.«161342_g73882027425809_cont_9to1c4b_278_11_alg».proof.Proof.Gen.KernelIdeal
import proofs.«161342_g73882027425809_cont_9to1c4b_278_11_alg».proof.Proof.Gen.ReferenceIdeal
import proofs.«161342_g73882027425809_cont_9to1c4b_278_11_alg».proof.Proof.Gen.Pre_finite_inputs
import proofs.«161342_g73882027425809_cont_9to1c4b_278_11_alg».proof.Proof.K.Launch
import proofs.«161342_g73882027425809_cont_9to1c4b_278_11_alg».proof.Proof.KI.Final
import proofs.«161342_g73882027425809_cont_9to1c4b_278_11_alg».proof.Proof.KernelValue
import proofs.«161342_g73882027425809_cont_9to1c4b_278_11_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Fr.frame m ρ

/-- So does the idealized kernel. -/
theorem frame_ki : @Cert.frame_KernelIdeal Cert.KernelIdeal.Gen.facts Cert.Pre_finite_inputs.Gen.facts :=
  fun m ρ _ => Cert.KernelIdeal.Fr.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the result array at the specification's
    function of the arguments: the kernel's accumulated product by the block regrouping, the reference's composed
    stages read index by index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Fr.resultArr m c, Cert.KernelIdeal.Fr.run_args (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v13_eq _ _ _ _ _).trans ?_
  rw [Cert.RefValue.ref_eq]
  show _ = Cert.KernelIdeal.Fr.resultArr m c
  rw [Cert.KernelIdeal.Fr.resultArr_eq, Cert.KernelIdeal.Fr.entry_arg0, Cert.KernelIdeal.Fr.entry_arg1,
    Cert.KernelIdeal.Fr.entry_arg2, Cert.KernelIdeal.Fr.entry_arg3]
  exact (Cert.KernelValue.result_eq _ _ _ _ _ _ (fun q => Cert.KernelIdeal.Fr.entry_v0_apply m c q)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
